-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x65536x64 : Shape := ⟨3, ![2, 65536, 64]⟩
abbrev S2x65536x16 : Shape := ⟨3, ![2, 65536, 16]⟩
abbrev S2x65536x16x16 : Shape := ⟨4, ![2, 65536, 16, 16]⟩
abbrev S2x65536x16x3 : Shape := ⟨4, ![2, 65536, 16, 3]⟩
abbrev S128x1072 : Shape := ⟨2, ![128, 1072]⟩
abbrev S128 : Shape := ⟨1, ![128]⟩
abbrev S_ : Shape := ⟨0, ![]⟩

class Facts : Prop where
  bcast_S_S2x65536x64 : S_.BroadcastsInDim S2x65536x64 (![] : Fin 0 → Fin S2x65536x64.rank)
  reducesTo_S2x65536x64_S_d0_1_2 : S2x65536x64.ReducesTo [0, 1, 2] S_
  h_S_ : 0 < S_.numel
  bcast_S_S2x65536x16x16 : S_.BroadcastsInDim S2x65536x16x16 (![] : Fin 0 → Fin S2x65536x16x16.rank)
  reducesTo_S2x65536x16x16_S_d0_1_2_3 : S2x65536x16x16.ReducesTo [0, 1, 2, 3] S_
  bcast_S_S2x65536x16x3 : S_.BroadcastsInDim S2x65536x16x3 (![] : Fin 0 → Fin S2x65536x16x3.rank)
  reducesTo_S2x65536x16x3_S_d0_1_2_3 : S2x65536x16x3.ReducesTo [0, 1, 2, 3] S_
  bcast_S_S128x1072 : S_.BroadcastsInDim S128x1072 (![] : Fin 0 → Fin S128x1072.rank)
  reducesTo_S128x1072_S_d0_1 : S128x1072.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x1072 1) : IVec S_ 1 :=
  let main_c_5 : IVec S_ 1 := constantI S_ 1 1#1
  let main_v17 : IVec S_ 1 := (fun x v => Host.reduce IntOp.andi x v reducesTo_S128x1072_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2x65536x64 .f32) (main_arg1 : IVec S2x65536x16 32) (main_arg2 : FVec F S2x65536x16x16 .f32) (main_arg3 : FVec F S2x65536x16x3 .f32) (main_arg4 : FVec F S128x1072 .f32) (main_arg5 : FVec F S128 .f32) : IVec S_ 1 :=
  let main_v0 : FVec F S2x65536x64 .f32 := Host.absf main_arg0
  let main_cst : FVec F S_ .f32 := constant S_ .f32 0x7F800000#32
  let main_v1 : FVec F S2x65536x64 .f32 := broadcastInDim S2x65536x64 ![] bcast_S_S2x65536x64 main_cst
  let main_v2 : IVec S2x65536x64 1 := cmpf .olt main_v0 main_v1
  let main_c : IVec S_ 1 := constantI S_ 1 1#1
  let main_v3 : IVec S_ 1 := (fun x v => Host.reduce IntOp.andi x v reducesTo_S2x65536x64_S_d0_1_2 h_S_) main_v2 main_c
  let main_v4 : FVec F S2x65536x16x16 .f32 := Host.absf main_arg2
  let main_cst_0 : FVec F S_ .f32 := constant S_ .f32 0x7F800000#32
  let main_v5 : FVec F S2x65536x16x16 .f32 := broadcastInDim S2x65536x16x16 ![] bcast_S_S2x65536x16x16 main_cst_0
  let main_v6 : IVec S2x65536x16x16 1 := cmpf .olt main_v4 main_v5
  let main_c_1 : IVec S_ 1 := constantI S_ 1 1#1
  let main_v7 : IVec S_ 1 := (fun x v => Host.reduce IntOp.andi x v reducesTo_S2x65536x16x16_S_d0_1_2_3 h_S_) main_v6 main_c_1
  let main_v8 : IVec S_ 1 := andi main_v3 main_v7
  let main_v9 : FVec F S2x65536x16x3 .f32 := Host.absf main_arg3
  let main_cst_2 : FVec F S_ .f32 := constant S_ .f32 0x7F800000#32
  let main_v10 : FVec F S2x65536x16x3 .f32 := broadcastInDim S2x65536x16x3 ![] bcast_S_S2x65536x16x3 main_cst_2
  let main_v11 : IVec S2x65536x16x3 1 := cmpf .olt main_v9 main_v10
  let main_c_3 : IVec S_ 1 := constantI S_ 1 1#1
  let main_v12 : IVec S_ 1 := (fun x v => Host.reduce IntOp.andi x v reducesTo_S2x65536x16x3_S_d0_1_2_3 h_S_) main_v11 main_c_3
  let main_v13 : IVec S_ 1 := andi main_v8 main_v12
  let main_v14 : FVec F S128x1072 .f32 := Host.absf main_arg4
  let main_cst_4 : FVec F S_ .f32 := constant S_ .f32 0x7F800000#32
  let main_v15 : FVec F S128x1072 .f32 := broadcastInDim S128x1072 ![] bcast_S_S128x1072 main_cst_4
  let main_v16 : IVec S128x1072 1 := cmpf .olt main_v14 main_v15
  fn_part1 (F := F) main_arg5 main_v13 main_v16
-- ==== Kernel.lean ====
abbrev S2x65536x64 : Shape := ⟨3, ![2, 65536, 64]⟩
abbrev S2x65536x16 : Shape := ⟨3, ![2, 65536, 16]⟩
abbrev S2x65536x16x16 : Shape := ⟨4, ![2, 65536, 16, 16]⟩
abbrev S2x65536x16x3 : Shape := ⟨4, ![2, 65536, 16, 3]⟩
abbrev S128x1072 : Shape := ⟨2, ![128, 1072]⟩
abbrev S128 : Shape := ⟨1, ![128]⟩
abbrev S1072 : Shape := ⟨1, ![1072]⟩
abbrev S_ : Shape := ⟨0, ![]⟩
abbrev S2x65536x16x1 : Shape := ⟨4, ![2, 65536, 16, 1]⟩
abbrev S2x65536x16x64 : Shape := ⟨4, ![2, 65536, 16, 64]⟩
abbrev S131072x16x64 : Shape := ⟨3, ![131072, 16, 64]⟩
abbrev S131072x16x3 : Shape := ⟨3, ![131072, 16, 3]⟩
abbrev S131072x16x16 : Shape := ⟨3, ![131072, 16, 16]⟩
abbrev S1072x1 : Shape := ⟨2, ![1072, 1]⟩
abbrev S1 : Shape := ⟨1, ![1]⟩
abbrev S1x1 : Shape := ⟨2, ![1, 1]⟩
abbrev S1072x128 : Shape := ⟨2, ![1072, 128]⟩
abbrev S16x67x128 : Shape := ⟨3, ![16, 67, 128]⟩
abbrev S131072x128 : Shape := ⟨2, ![131072, 128]⟩
abbrev S256x16x64 : Shape := ⟨3, ![256, 16, 64]⟩
abbrev S256x16x3 : Shape := ⟨3, ![256, 16, 3]⟩
abbrev S256x16x16 : Shape := ⟨3, ![256, 16, 16]⟩
abbrev S256x128 : Shape := ⟨2, ![256, 128]⟩
abbrev S256x16x67 : Shape := ⟨3, ![256, 16, 67]⟩
abbrev S256x1x67 : Shape := ⟨3, ![256, 1, 67]⟩
abbrev S256x67 : Shape := ⟨2, ![256, 67]⟩
abbrev S1x67x128 : Shape := ⟨3, ![1, 67, 128]⟩
abbrev S67x128 : Shape := ⟨2, ![67, 128]⟩
abbrev S1x128 : Shape := ⟨2, ![1, 128]⟩
abbrev S2x65536x128 : Shape := ⟨3, ![2, 65536, 128]⟩

abbrev nBuf : Space → Nat
  | .hbm => 46
  | .vmem => 10
  | .smem => 0
  | _ => 0

abbrev bufTy : (tb : Table) → Fin (tcTables nBuf tb) → BufTy
  | .hbm, ⟨0, _⟩ => ⟨S2x65536x64, .f32⟩
  | .hbm, ⟨1, _⟩ => ⟨S2x65536x16, .i32⟩
  | .hbm, ⟨2, _⟩ => ⟨S2x65536x16x16, .f32⟩
  | .hbm, ⟨3, _⟩ => ⟨S2x65536x16x3, .f32⟩
  | .hbm, ⟨4, _⟩ => ⟨S128x1072, .f32⟩
  | .hbm, ⟨5, _⟩ => ⟨S128, .f32⟩
  | .hbm, ⟨6, _⟩ => ⟨S1072, .i32⟩
  | .hbm, ⟨7, _⟩ => ⟨S_, .i32⟩
  | .hbm, ⟨8, _⟩ => ⟨S2x65536x16, .i32⟩
  | .hbm, ⟨9, _⟩ => ⟨S2x65536x16, .i1⟩
  | .hbm, ⟨10, _⟩ => ⟨S_, .i32⟩
  | .hbm, ⟨11, _⟩ => ⟨S2x65536x16, .i32⟩
  | .hbm, ⟨12, _⟩ => ⟨S2x65536x16, .i32⟩
  | .hbm, ⟨13, _⟩ => ⟨S2x65536x16, .i32⟩
  | .hbm, ⟨14, _⟩ => ⟨S2x65536x16x1, .i32⟩
  | .hbm, ⟨15, _⟩ => ⟨S2x65536x16x64, .f32⟩
  | .hbm, ⟨16, _⟩ => ⟨S131072x16x64, .f32⟩
  | .hbm, ⟨17, _⟩ => ⟨S131072x16x3, .f32⟩
  | .hbm, ⟨18, _⟩ => ⟨S131072x16x16, .f32⟩
  | .hbm, ⟨19, _⟩ => ⟨S_, .i32⟩
  | .hbm, ⟨20, _⟩ => ⟨S1072, .i32⟩
  | .hbm, ⟨21, _⟩ => ⟨S1072, .i1⟩
  | .hbm, ⟨22, _⟩ => ⟨S_, .i32⟩
  | .hbm, ⟨23, _⟩ => ⟨S1072, .i32⟩
  | .hbm, ⟨24, _⟩ => ⟨S1072, .i32⟩
  | .hbm, ⟨25, _⟩ => ⟨S1072, .i32⟩
  | .hbm, ⟨26, _⟩ => ⟨S1072x1, .i32⟩
  | .hbm, ⟨27, _⟩ => ⟨S1, .i32⟩
  | .hbm, ⟨28, _⟩ => ⟨S_, .i32⟩
  | .hbm, ⟨29, _⟩ => ⟨S1072x1, .i32⟩
  | .hbm, ⟨30, _⟩ => ⟨S1072x1, .i1⟩
  | .hbm, ⟨31, _⟩ => ⟨S1x1, .i32⟩
  | .hbm, ⟨32, _⟩ => ⟨S1072x1, .i32⟩
  | .hbm, ⟨33, _⟩ => ⟨S1072x1, .i1⟩
  | .hbm, ⟨34, _⟩ => ⟨S1072x1, .i1⟩
  | .hbm, ⟨35, _⟩ => ⟨S_, .i1⟩
  | .hbm, ⟨36, _⟩ => ⟨S1072, .i1⟩
  | .hbm, ⟨37, _⟩ => ⟨S128x1072, .f32⟩
  | .hbm, ⟨38, _⟩ => ⟨S128x1072, .i1⟩
  | .hbm, ⟨39, _⟩ => ⟨S_, .f32⟩
  | .hbm, ⟨40, _⟩ => ⟨S128x1072, .f32⟩
  | .hbm, ⟨41, _⟩ => ⟨S128x1072, .f32⟩
  | .hbm, ⟨42, _⟩ => ⟨S1072x128, .f32⟩
  | .hbm, ⟨43, _⟩ => ⟨S16x67x128, .f32⟩
  | .hbm, ⟨44, _⟩ => ⟨S131072x128, .f32⟩
  | .hbm, ⟨45, _⟩ => ⟨S2x65536x128, .f32⟩
  | .local _ .vmem, ⟨0, _⟩ => ⟨S256x16x64, .f32⟩
  | .local _ .vmem, ⟨1, _⟩ => ⟨S256x16x64, .f32⟩
  | .local _ .vmem, ⟨2, _⟩ => ⟨S256x16x3, .f32⟩
  | .local _ .vmem, ⟨3, _⟩ => ⟨S256x16x3, .f32⟩
  | .local _ .vmem, ⟨4, _⟩ => ⟨S256x16x16, .f32⟩
  | .local _ .vmem, ⟨5, _⟩ => ⟨S256x16x16, .f32⟩
  | .local _ .vmem, ⟨6, _⟩ => ⟨S16x67x128, .f32⟩
  | .local _ .vmem, ⟨7, _⟩ => ⟨S128, .f32⟩
  | .local _ .vmem, ⟨8, _⟩ => ⟨S256x128, .f32⟩
  | .local _ .vmem, ⟨9, _⟩ => ⟨S256x128, .f32⟩
  | _, _ => ⟨S2x65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x67x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2x65536x16 : S_.BroadcastsInDim S2x65536x16 (![] : Fin 0 → Fin S2x65536x16.rank)
  bcast_S2x65536x16_S2x65536x16x1_0_1_2 : S2x65536x16.BroadcastsInDim S2x65536x16x1 (![0, 1, 2] : Fin 3 → Fin S2x65536x16x1.rank)
  shapeCasts_S2x65536x16x64_S131072x16x64 : S2x65536x16x64.ShapeCasts S131072x16x64
  shapeCasts_S2x65536x16x3_S131072x16x3 : S2x65536x16x3.ShapeCasts S131072x16x3
  shapeCasts_S2x65536x16x16_S131072x16x16 : S2x65536x16x16.ShapeCasts S131072x16x16
  bcast_S_S1072 : S_.BroadcastsInDim S1072 (![] : Fin 0 → Fin S1072.rank)
  bcast_S1072_S1072x1_0 : S1072.BroadcastsInDim S1072x1 (![0] : Fin 1 → Fin S1072x1.rank)
  bcast_S_S1072x1 : S_.BroadcastsInDim S1072x1 (![] : Fin 0 → Fin S1072x1.rank)
  bcast_S1_S1x1_1 : S1.BroadcastsInDim S1x1 (![1] : Fin 1 → Fin S1x1.rank)
  bcast_S1x1_S1072x1_0_1 : S1x1.BroadcastsInDim S1072x1 (![0, 1] : Fin 2 → Fin S1072x1.rank)
  reducesTo_S1072x1_S1072_d1 : S1072x1.ReducesTo [1] S1072
  h_S_ : 0 < S_.numel
  bcast_S1072_S128x1072_1 : S1072.BroadcastsInDim S128x1072 (![1] : Fin 1 → Fin S128x1072.rank)
  bcast_S_S128x1072 : S_.BroadcastsInDim S128x1072 (![] : Fin 0 → Fin S128x1072.rank)
  transposes_S128x1072_S1072x128_1_0 : S128x1072.Transposes [1, 0] S1072x128
  shapeCasts_S1072x128_S16x67x128 : S1072x128.ShapeCasts S16x67x128
  inb_S256x16x64_S256x16x64_0_0_0 : ∀ a, (![0, 0, 0] : Fin 3 → Nat) a + S256x16x64.size a ≤ S256x16x64.size a
  h_S256x16x64 : 0 < S256x16x64.numel
  shapeCasts_S256x16x64_S256x16x64 : S256x16x64.ShapeCasts S256x16x64
  inb_S256x16x3_S256x16x3_0_0_0 : ∀ a, (![0, 0, 0] : Fin 3 → Nat) a + S256x16x3.size a ≤ S256x16x3.size a
  h_S256x16x3 : 0 < S256x16x3.numel
  shapeCasts_S256x16x3_S256x16x3 : S256x16x3.ShapeCasts S256x16x3
  inb_S256x16x16_S256x16x16_0_0_0 : ∀ a, (![0, 0, 0] : Fin 3 → Nat) a + S256x16x16.size a ≤ S256x16x16.size a
  h_S256x16x16 : 0 < S256x16x16.numel
  shapeCasts_S256x16x16_S256x16x16 : S256x16x16.ShapeCasts S256x16x16
  concatenates_S256x16x64_S256x16x3_S256x16x67_d2 : Shape.Concatenates [S256x16x64, S256x16x3] S256x16x67 2
  slices_S256x16x67_o0_0_0_S256x1x67 : S256x16x67.Slices ![0, 0, 0] S256x1x67
  shapeCasts_S256x1x67_S256x67 : S256x1x67.ShapeCasts S256x67
  inb_S16x67x128_S1x67x128_0_0_0 : ∀ a, (![0, 0, 0] : Fin 3 → Nat) a + S1x67x128.size a ≤ S16x67x128.size a
  h_S1x67x128 : 0 < S1x67x128.numel
  shapeCasts_S1x67x128_S67x128 : S1x67x128.ShapeCasts S67x128
  slices_S256x16x67_o0_1_0_S256x1x67 : S256x16x67.Slices ![0, 1, 0] S256x1x67
  inb_S16x67x128_S1x67x128_1_0_0 : ∀ a, (![1, 0, 0] : Fin 3 → Nat) a + S1x67x128.size a ≤ S16x67x128.size a
  slices_S256x16x67_o0_2_0_S256x1x67 : S256x16x67.Slices ![0, 2, 0] S256x1x67
  inb_S16x67x128_S1x67x128_2_0_0 : ∀ a, (![2, 0, 0] : Fin 3 → Nat) a + S1x67x128.size a ≤ S16x67x128.size a
  slices_S256x16x67_o0_3_0_S256x1x67 : S256x16x67.Slices ![0, 3, 0] S256x1x67
  inb_S16x67x128_S1x67x128_3_0_0 : ∀ a, (![3, 0, 0] : Fin 3 → Nat) a + S1x67x128.size a ≤ S16x67x128.size a
  slices_S256x16x67_o0_4_0_S256x1x67 : S256x16x67.Slices ![0, 4, 0] S256x1x67
  inb_S16x67x128_S1x67x128_4_0_0 : ∀ a, (![4, 0, 0] : Fin 3 → Nat) a + S1x67x128.size a ≤ S16x67x128.size a
  slices_S256x16x67_o0_5_0_S256x1x67 : S256x16x67.Slices ![0, 5, 0] S256x1x67
  inb_S16x67x128_S1x67x128_5_0_0 : ∀ a, (![5, 0, 0] : Fin 3 → Nat) a + S1x67x128.size a ≤ S16x67x128.size a
  slices_S256x16x67_o0_6_0_S256x1x67 : S256x16x67.Slices ![0, 6, 0] S256x1x67
  inb_S16x67x128_S1x67x128_6_0_0 : ∀ a, (![6, 0, 0] : Fin 3 → Nat) a + S1x67x128.size a ≤ S16x67x128.size a
  slices_S256x16x67_o0_7_0_S256x1x67 : S256x16x67.Slices ![0, 7, 0] S256x1x67
  inb_S16x67x128_S1x67x128_7_0_0 : ∀ a, (![7, 0, 0] : Fin 3 → Nat) a + S1x67x128.size a ≤ S16x67x128.size a
  slices_S256x16x67_o0_8_0_S256x1x67 : S256x16x67.Slices ![0, 8, 0] S256x1x67
  inb_S16x67x128_S1x67x128_8_0_0 : ∀ a, (![8, 0, 0] : Fin 3 → Nat) a + S1x67x128.size a ≤ S16x67x128.size a
  slices_S256x16x67_o0_9_0_S256x1x67 : S256x16x67.Slices ![0, 9, 0] S256x1x67
  inb_S16x67x128_S1x67x128_9_0_0 : ∀ a, (![9, 0, 0] : Fin 3 → Nat) a + S1x67x128.size a ≤ S16x67x128.size a
  slices_S256x16x67_o0_10_0_S256x1x67 : S256x16x67.Slices ![0, 10, 0] S256x1x67
  inb_S16x67x128_S1x67x128_10_0_0 : ∀ a, (![10, 0, 0] : Fin 3 → Nat) a + S1x67x128.size a ≤ S16x67x128.size a
  slices_S256x16x67_o0_11_0_S256x1x67 : S256x16x67.Slices ![0, 11, 0] S256x1x67
  inb_S16x67x128_S1x67x128_11_0_0 : ∀ a, (![11, 0, 0] : Fin 3 → Nat) a + S1x67x128.size a ≤ S16x67x128.size a
  slices_S256x16x67_o0_12_0_S256x1x67 : S256x16x67.Slices ![0, 12, 0] S256x1x67
  inb_S16x67x128_S1x67x128_12_0_0 : ∀ a, (![12, 0, 0] : Fin 3 → Nat) a + S1x67x128.size a ≤ S16x67x128.size a
  slices_S256x16x67_o0_13_0_S256x1x67 : S256x16x67.Slices ![0, 13, 0] S256x1x67
  inb_S16x67x128_S1x67x128_13_0_0 : ∀ a, (![13, 0, 0] : Fin 3 → Nat) a + S1x67x128.size a ≤ S16x67x128.size a
  slices_S256x16x67_o0_14_0_S256x1x67 : S256x16x67.Slices ![0, 14, 0] S256x1x67
  inb_S16x67x128_S1x67x128_14_0_0 : ∀ a, (![14, 0, 0] : Fin 3 → Nat) a + S1x67x128.size a ≤ S16x67x128.size a
  slices_S256x16x67_o0_15_0_S256x1x67 : S256x16x67.Slices ![0, 15, 0] S256x1x67
  inb_S16x67x128_S1x67x128_15_0_0 : ∀ a, (![15, 0, 0] : Fin 3 → Nat) a + S1x67x128.size a ≤ S16x67x128.size a
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S131072x128_S2x65536x128 : S131072x128.ShapeCasts S2x65536x128
  gather_S2x65536x64_S2x65536x16x1_S2x65536x16x64_3_1_0_0_1_3_1164_wf : GatherDims.WF S2x65536x64 S2x65536x16x1 S2x65536x16x64 [3] [1] [0] [1] [0] 3 ![1, 1, 64]
  gather_S128x1072_S1072x1_S128x1072_0_1_n_n_1_1_1281_wf : GatherDims.WF S128x1072 S1072x1 S128x1072 [0] [1] [] [1] [] 1 ![128, 1]
  dot_S256x16x16_S256x16x67_S256x16x67_1_1_2_2_0_0_wf : DotDims.WF S256x16x16 S256x16x67 S256x16x67 [1] [1] [2] [2] [0] [0]
  dot_S256x67_S67x128_S256x128_1_0_0_1_n_n_wf : DotDims.WF S256x67 S67x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16x64.size a ≤ S131072x16x64.size a
  hwx0_0 : ∀ i : grid0.Coords, EltTy.bits .f32 = 32 ∨ (Rect.block (s := S131072x16x64) S256x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x3.size a ≤ S131072x16x3.size a
  hwx0_1 : ∀ i : grid0.Coords, EltTy.bits .f32 = 32 ∨ (Rect.block (s := S131072x16x3) S256x16x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x16.size a ≤ S131072x16x16.size a
  hwx0_2 : ∀ i : grid0.Coords, EltTy.bits .f32 = 32 ∨ (Rect.block (s := S131072x16x16) S256x16x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x67x128.size a ≤ S16x67x128.size a
  hwx0_3 : ∀ i : grid0.Coords, EltTy.bits .f32 = 32 ∨ (Rect.block (s := S16x67x128) S16x67x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S131072x128.size a
  hwx0_5 : ∀ i : grid0.Coords, EltTy.bits .f32 = 32 ∨ (Rect.block (s := S131072x128) S256x128.size (cc0_transform_5 i) (hinb0_5 i)).WholeWords (EltTy.packing .f32)

variable [Facts₀]

def gather_S2x65536x64_S2x65536x16x1_S2x65536x16x64_3_1_0_0_1_3_1164 : GatherDims S2x65536x64 S2x65536x16x1 S2x65536x16x64 where
  offsetDims := [3]
  collapsedSliceDims := [1]
  operandBatchingDims := [0]
  startIndicesBatchingDims := [0]
  startIndexMap := [1]
  indexVectorDim := 3
  sliceSizes := ![1, 1, 64]
  wf := gather_S2x65536x64_S2x65536x16x1_S2x65536x16x64_3_1_0_0_1_3_1164_wf
def gather_S128x1072_S1072x1_S128x1072_0_1_n_n_1_1_1281 : GatherDims S128x1072 S1072x1 S128x1072 where
  offsetDims := [0]
  collapsedSliceDims := [1]
  operandBatchingDims := []
  startIndicesBatchingDims := []
  startIndexMap := [1]
  indexVectorDim := 1
  sliceSizes := ![128, 1]
  wf := gather_S128x1072_S1072x1_S128x1072_0_1_n_n_1_1_1281_wf
def dot_S256x16x16_S256x16x67_S256x16x67_1_1_2_2_0_0 : DotDims S256x16x16 S256x16x67 S256x16x67 where
  lhsContracting := [1]
  rhsContracting := [1]
  lhsNonContracting := [2]
  rhsNonContracting := [2]
  lhsBatch := [0]
  rhsBatch := [0]
  wf := dot_S256x16x16_S256x16x67_S256x16x67_1_1_2_2_0_0_wf
def dot_S256x67_S67x128_S256x128_1_0_0_1_n_n : DotDims S256x67 S67x128 S256x128 where
  lhsContracting := [1]
  rhsContracting := [0]
  lhsNonContracting := [0]
  rhsNonContracting := [1]
  lhsBatch := []
  rhsBatch := []
  wf := dot_S256x67_S67x128_S256x128_1_0_0_1_n_n_wf

abbrev win0_0 : Pipeline.Window sig grid0 :=
  Pipeline.Window.ofSpec (Memref.whole main_v7) S256x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x16x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x67x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x65536x64 : Shape := ⟨3, ![2, 65536, 64]⟩
abbrev S2x65536x16 : Shape := ⟨3, ![2, 65536, 16]⟩
abbrev S2x65536x16x16 : Shape := ⟨4, ![2, 65536, 16, 16]⟩
abbrev S2x65536x16x3 : Shape := ⟨4, ![2, 65536, 16, 3]⟩
abbrev S128x1072 : Shape := ⟨2, ![128, 1072]⟩
abbrev S128 : Shape := ⟨1, ![128]⟩
abbrev S_ : Shape := ⟨0, ![]⟩
abbrev S2x65536x16x1 : Shape := ⟨4, ![2, 65536, 16, 1]⟩
abbrev S2x65536x16x64 : Shape := ⟨4, ![2, 65536, 16, 64]⟩
abbrev S2x65536x16x67 : Shape := ⟨4, ![2, 65536, 16, 67]⟩
abbrev S2x65536x67x16 : Shape := ⟨4, ![2, 65536, 67, 16]⟩
abbrev S2x65536x1072 : Shape := ⟨3, ![2, 65536, 1072]⟩
abbrev S2x65536x128 : Shape := ⟨3, ![2, 65536, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x65536x64, .f32⟩
  | .hbm, ⟨1, _⟩ => ⟨S2x65536x16, .i32⟩
  | .hbm, ⟨2, _⟩ => ⟨S2x65536x16x16, .f32⟩
  | .hbm, ⟨3, _⟩ => ⟨S2x65536x16x3, .f32⟩
  | .hbm, ⟨4, _⟩ => ⟨S128x1072, .f32⟩
  | .hbm, ⟨5, _⟩ => ⟨S128, .f32⟩
  | .hbm, ⟨6, _⟩ => ⟨S_, .i32⟩
  | .hbm, ⟨7, _⟩ => ⟨S2x65536x16, .i32⟩
  | .hbm, ⟨8, _⟩ => ⟨S2x65536x16, .i1⟩
  | .hbm, ⟨9, _⟩ => ⟨S_, .i32⟩
  | .hbm, ⟨10, _⟩ => ⟨S2x65536x16, .i32⟩
  | .hbm, ⟨11, _⟩ => ⟨S2x65536x16, .i32⟩
  | .hbm, ⟨12, _⟩ => ⟨S2x65536x16, .i32⟩
  | .hbm, ⟨13, _⟩ => ⟨S2x65536x16x1, .i32⟩
  | .hbm, ⟨14, _⟩ => ⟨S2x65536x16x64, .f32⟩
  | .hbm, ⟨15, _⟩ => ⟨S2x65536x16x67, .f32⟩
  | .hbm, ⟨16, _⟩ => ⟨S2x65536x67x16, .f32⟩
  | .hbm, ⟨17, _⟩ => ⟨S2x65536x1072, .f32⟩
  | .hbm, ⟨18, _⟩ => ⟨S2x65536x128, .f32⟩
  | .hbm, ⟨19, _⟩ => ⟨S1x1x128, .f32⟩
  | .hbm, ⟨20, _⟩ => ⟨S2x65536x128, .f32⟩
  | .hbm, ⟨21, _⟩ => ⟨S2x65536x128, .f32⟩
  | _, _ => ⟨S2x65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S2x65536x16 : S_.BroadcastsInDim S2x65536x16 (![] : Fin 0 → Fin S2x65536x16.rank)
  bcast_S2x65536x16_S2x65536x16x1_0_1_2 : S2x65536x16.BroadcastsInDim S2x65536x16x1 (![0, 1, 2] : Fin 3 → Fin S2x65536x16x1.rank)
  concatenates_S2x65536x16x64_S2x65536x16x3_S2x65536x16x67_d3 : Shape.Concatenates [S2x65536x16x64, S2x65536x16x3] S2x65536x16x67 3
  shapeCasts_S2x65536x67x16_S2x65536x1072 : S2x65536x67x16.ShapeCasts S2x65536x1072
  bcast_S128_S1x1x128_2 : S128.BroadcastsInDim S1x1x128 (![2] : Fin 1 → Fin S1x1x128.rank)
  bcast_S1x1x128_S2x65536x128_0_1_2 : S1x1x128.BroadcastsInDim S2x65536x128 (![0, 1, 2] : Fin 3 → Fin S2x65536x128.rank)
  gather_S2x65536x64_S2x65536x16x1_S2x65536x16x64_3_1_0_0_1_3_1164_wf : GatherDims.WF S2x65536x64 S2x65536x16x1 S2x65536x16x64 [3] [1] [0] [1] [0] 3 ![1, 1, 64]
  dot_S2x65536x16x67_S2x65536x16x16_S2x65536x67x16_2_2_3_3_01_01_wf : DotDims.WF S2x65536x16x67 S2x65536x16x16 S2x65536x67x16 [2] [2] [3] [3] [0, 1] [0, 1]
  dot_S2x65536x1072_S128x1072_S2x65536x128_2_1_01_0_n_n_wf : DotDims.WF S2x65536x1072 S128x1072 S2x65536x128 [2] [1] [0, 1] [0] [] []

variable [Facts₀]

def gather_S2x65536x64_S2x65536x16x1_S2x65536x16x64_3_1_0_0_1_3_1164 : GatherDims S2x65536x64 S2x65536x16x1 S2x65536x16x64 where
  offsetDims := [3]
  collapsedSliceDims := [1]
  operandBatchingDims := [0]
  startIndicesBatchingDims := [0]
  startIndexMap := [1]
  indexVectorDim := 3
  sliceSizes := ![1, 1, 64]
  wf := gather_S2x65536x64_S2x65536x16x1_S2x65536x16x64_3_1_0_0_1_3_1164_wf
def dot_S2x65536x16x67_S2x65536x16x16_S2x65536x67x16_2_2_3_3_01_01 : DotDims S2x65536x16x67 S2x65536x16x16 S2x65536x67x16 where
  lhsContracting := [2]
  rhsContracting := [2]
  lhsNonContracting := [3]
  rhsNonContracting := [3]
  lhsBatch := [0, 1]
  rhsBatch := [0, 1]
  wf := dot_S2x65536x16x67_S2x65536x16x16_S2x65536x67x16_2_2_3_3_01_01_wf
def dot_S2x65536x1072_S128x1072_S2x65536x128_2_1_01_0_n_n : DotDims S2x65536x1072 S128x1072 S2x65536x128 where
  lhsContracting := [2]
  rhsContracting := [1]
  lhsNonContracting := [0, 1]
  rhsNonContracting := [0]
  lhsBatch := []
  rhsBatch := []
  wf := dot_S2x65536x1072_S128x1072_S2x65536x128_2_1_01_0_n_n_wf

class Facts : Prop extends Facts₀ where

variable [Facts]
-- ==== Proof.Spec.lean ====
/-
  The mathematics of one output entry, on the extended reals.

  For one point (batch b, node n) and one output channel o the layer computes
      out = Σ_q pconv q · W q + bias,   pconv (c·16 + j) = Σ_k feat k c · wn k j,
  where k runs over the 16 neighbours, c over the 67 feature channels (64 gathered ones followed by 3
  additional ones), j over the 16 weight-net channels, and q = c·16 + j over the 1072 columns of the linear
  layer.  The reference sums over q in one go (`refRow`).  The kernel forms, for each j in turn, the partial sum
  over c of (Σ_k wn k j · feat k c) · W (c·16 + j) and adds these sixteen partial sums one after the other onto
  zero (`kerRow`).  Both are the same finite sum on the extended reals: only commutativity of the product and
  commutativity and associativity of the sum are used (no distributivity, so no finiteness is needed), and the
  re-indexing q ↔ (c, j).
-/
import Mathlib.Data.EReal.Inv
import Mathlib.Algebra.BigOperators.Fin
import Mathlib.Algebra.BigOperators.Group.Finset.Basic

noncomputable section

namespace Cert.PConv

open scoped BigOperators

/-- The feature row of a point: the 64 gathered channels followed by the 3 additional ones. -/
def catRow (g : Fin 16 → Fin 64 → EReal) (a : Fin 16 → Fin 3 → EReal) : Fin 16 → Fin 67 → EReal :=
  fun k c => if h : c.val < 64 then g k ⟨c.val, h⟩ else a k ⟨c.val - 64, by have := c.isLt; omega⟩

/-- One output entry the reference's way: the 1072 products summed at once, then the bias. -/
def refRow (ft : Fin 16 → Fin 67 → EReal) (w : Fin 16 → Fin 16 → EReal) (lw : Fin 1072 → EReal) (bias : EReal) : EReal :=
  (∑ q : Fin 1072, (∑ k : Fin 16, ft k ⟨q.val / 16, by have := q.isLt; omega⟩ * w k ⟨q.val % 16, Nat.mod_lt _ (by decide)⟩) * lw q) + bias

/-- The kernel's partial sum for weight-net channel `j`: over the 67 feature channels. -/
def kerTerm (ft : Fin 16 → Fin 67 → EReal) (w : Fin 16 → Fin 16 → EReal) (lwK : Fin 16 → Fin 67 → EReal) (j : Fin 16) : EReal :=
  ∑ c : Fin 67, (∑ k : Fin 16, w k j * ft k c) * lwK j c

/-- One output entry the kernel's way: the sixteen partial sums added one after the other onto zero, then the bias. -/
def kerRow (ft : Fin 16 → Fin 67 → EReal) (w : Fin 16 → Fin 16 → EReal) (lwK : Fin 16 → Fin 67 → EReal) (bias : EReal) : EReal :=
  ((((((((((((((((0 + kerTerm ft w lwK 0) + kerTerm ft w lwK 1) + kerTerm ft w lwK 2) + kerTerm ft w lwK 3)
    + kerTerm ft w lwK 4) + kerTerm ft w lwK 5) + kerTerm ft w lwK 6) + kerTerm ft w lwK 7)
    + kerTerm ft w lwK 8) + kerTerm ft w lwK 9) + kerTerm ft w lwK 10) + kerTerm ft w lwK 11)
    + kerTerm ft w lwK 12) + kerTerm ft w lwK 13) + kerTerm ft w lwK 14) + kerTerm ft w lwK 15) + bias

/-- Sixteen terms added one after the other onto zero are their sum. -/
theorem sum16 (T : Fin 16 → EReal) :
    ((((((((((((((((0 + T 0) + T 1) + T 2) + T 3) + T 4) + T 5) + T 6) + T 7) + T 8) + T 9) + T 10) + T 11)
      + T 12) + T 13) + T 14) + T 15) = ∑ j : Fin 16, T j := by
  simp only [Fin.sum_univ_castSucc, Fin.sum_univ_zero]
  rfl

/-- The columns of the linear layer, q = c·16 + j, are the pairs (c, j). -/
theorem sum_cols (f : Fin 1072 → EReal) :
    ∑ q : Fin 1072, f q = ∑ j : Fin 16, ∑ c : Fin 67, f ⟨c.val * 16 + j.val, by have := c.isLt; have := j.isLt; omega⟩ := by
  rw [← Equiv.sum_comp (finProdFinEquiv (m := 67) (n := 16)) f, Fintype.sum_prod_type, Finset.sum_comm]
  refine Finset.sum_congr rfl fun j _ => Finset.sum_congr rfl fun c _ => ?_
  refine congrArg f (Fin.ext ?_)
  show j.val + 16 * c.val = c.val * 16 + j.val
  omega

/-- The kernel's entry is the reference's, when the kernel's weights are the linear layer's columns re-laid:
    `lwK j c = lw (c·16 + j)`. -/
theorem kerRow_eq_refRow (ft : Fin 16 → Fin 67 → EReal) (w : Fin 16 → Fin 16 → EReal) (lwK : Fin 16 → Fin 67 → EReal)
    (lw : Fin 1072 → EReal) (bias : EReal)
    (h : ∀ (j : Fin 16) (c : Fin 67), lwK j c = lw ⟨c.val * 16 + j.val, by have := c.isLt; have := j.isLt; omega⟩) :
    kerRow ft w lwK bias = refRow ft w lw bias := by
  unfold kerRow refRow
  rw [sum16 (kerTerm ft w lwK), sum_cols]
  refine congrArg (· + bias) ?_
  refine Finset.sum_congr rfl fun j _ => ?_
  unfold kerTerm
  refine Finset.sum_congr rfl fun c _ => ?_
  have hc : (⟨(c.val * 16 + j.val) / 16, by have := c.isLt; have := j.isLt; omega⟩ : Fin 67) = c :=
    Fin.ext (by have := j.isLt; show (c.val * 16 + j.val) / 16 = c.val; omega)
  have hj : (⟨(c.val * 16 + j.val) % 16, Nat.mod_lt _ (by decide)⟩ : Fin 16) = j :=
    Fin.ext (by have := j.isLt; show (c.val * 16 + j.val) % 16 = j.val; omega)
  rw [h j c]
  refine congrArg (· * lw _) ?_
  refine Finset.sum_congr rfl fun k _ => ?_
  show w k j * ft k c = ft k ⟨(c.val * 16 + j.val) / 16, _⟩ * w k ⟨(c.val * 16 + j.val) % 16, _⟩
  rw [hc, hj]
  exact mul_comm _ _

end Cert.PConv

end
-- ==== Proof.RefValue.lean ====
/-
  The reference's result, entry by entry: at (b, n, o) it is the sum over the 1072 columns q = c·16 + j of
  (Σ_k feat (b, n, k, c) · wn (b, n, k, j)) · W (o, q), plus bias o, where feat is the gathered neighbour features
  followed by the additional features along the channel axis.
-/
import proofs.«415205_j8967891714686_4_alg».proof.Defs
import proofs.«415205_j8967891714686_4_alg».proof.Proof.Gen.ReferenceIdeal
import proofs.«415205_j8967891714686_4_alg».proof.Proof.Gen.ReferenceIdeal.Run
import proofs.«415205_j8967891714686_4_alg».proof.Proof.Gen.ReferenceIdeal.Read
import proofs.«415205_j8967891714686_4_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- The concatenated features at (b, n, k, c): a gathered channel for c < 64, an additional one from 64 on. -/
theorem cat_apply (g : (⟨S2x65536x16x64, .f32⟩ : BufTy).Contents (Elt Ideal)) (a3 : (⟨S2x65536x16x3, .f32⟩ : BufTy).Contents (Elt Ideal))
    (b : Fin 2) (n : Fin 65536) (k : Fin 16) (c : Fin 67) :
    concatenate S2x65536x16x67 3 [⟨S2x65536x16x64, g⟩, ⟨S2x65536x16x3, a3⟩] concatenates_S2x65536x16x64_S2x65536x16x3_S2x65536x16x67_d3 (ix4 b n k c)
      = Cert.PConv.catRow (fun k c => g (ix4 b n k c)) (fun k c => a3 (ix4 b n k c)) k c := by
  unfold Cert.PConv.catRow
  by_cases h : c.val < 64
  · rw [dif_pos h]
    exact concatenate_pair_apply_left (3 : Fin 4) g a3 _ (ix4 b n k c) rfl (ix4 b n k ⟨c.val, h⟩)
      (fun bb => by match bb with | ⟨0, _⟩ => rfl | ⟨1, _⟩ => rfl | ⟨2, _⟩ => rfl | ⟨3, _⟩ => rfl)
  · rw [dif_neg h]
    exact concatenate_pair_apply_right (3 : Fin 4) g a3 _ (ix4 b n k c) rfl rfl (ix4 b n k ⟨c.val - 64, by have := c.isLt; omega⟩)
      (fun bb hb => by
        match bb with
        | ⟨0, _⟩ => rfl
        | ⟨1, _⟩ => rfl
        | ⟨2, _⟩ => rfl
        | ⟨3, _⟩ => exact absurd rfl hb)
      (by show (c.val - 64) + 64 = c.val; omega)

/-- The reference's result at (b, n, o). -/
theorem ref_apply (x0 : (⟨S2x65536x64, .f32⟩ : BufTy).Contents (Elt Ideal)) (x1 : (⟨S2x65536x16, .i32⟩ : BufTy).Contents (Elt Ideal))
    (x2 : (⟨S2x65536x16x16, .f32⟩ : BufTy).Contents (Elt Ideal)) (x3 : (⟨S2x65536x16x3, .f32⟩ : BufTy).Contents (Elt Ideal))
    (x4 : (⟨S128x1072, .f32⟩ : BufTy).Contents (Elt Ideal)) (x5 : (⟨S128, .f32⟩ : BufTy).Contents (Elt Ideal))
    (b : Fin 2) (n : Fin 65536) (o : Fin 128) :
    val_main_v13 (F := Ideal) x0 x1 x2 x3 x4 x5 (ix3 b n o)
      = Cert.PConv.refRow (Cert.PConv.catRow (fun k c => val_main_v6 (F := Ideal) x0 x1 (ix4 b n k c)) (fun k c => x3 (ix4 b n k c)))
          (fun k j => x2 (ix4 b n k j)) (fun q => x4 (ix2 o q)) (x5 (ix1 o)) := by
  rw [val_main_v13_apply, val_main_v10_apply, val_main_v12_apply, val_main_v11_apply]
  unfold Cert.PConv.refRow
  have eb : idx_main_v11 (idx_main_v12 (ix3 b n o)) = ix1 o := funext fun a => by match a with | ⟨0, _⟩ => rfl
  rw [eb]
  refine congrArg (· + x5 (ix1 o)) ?_
  refine Finset.sum_congr rfl fun q _ => ?_
  have er : ridx_main_v10 (ix3 b n o) q = ix2 o q := funext fun a => by match a with | ⟨0, _⟩ => rfl | ⟨1, _⟩ => rfl
  rw [er, val_main_v9_apply]
  have hb := b.isLt; have hn := n.isLt; have hq := q.isLt
  have e9 : idx_main_v9 (lidx_main_v10 (ix3 b n o) q)
      = ix4 b n (⟨q.val / 16, by omega⟩ : Fin 67) (⟨q.val % 16, Nat.mod_lt _ (by decide)⟩ : Fin 16) := funext fun a => Fin.ext (by
    match a with
    | ⟨0, _⟩ => show ((b.val * 65536 + n.val) * 1072 + q.val) / 70254592 = b.val; omega
    | ⟨1, _⟩ => show ((b.val * 65536 + n.val) * 1072 + q.val) / 1072 % 65536 = n.val; omega
    | ⟨2, _⟩ => show ((b.val * 65536 + n.val) * 1072 + q.val) / 16 % 67 = q.val / 16; omega
    | ⟨3, _⟩ => show ((b.val * 65536 + n.val) * 1072 + q.val) % 16 = q.val % 16; omega)
  rw [e9, val_main_v8_apply]
  refine congrArg (· * x4 (ix2 o q)) ?_
  refine Finset.sum_congr rfl fun k _ => ?_
  have el : lidx_main_v8 (ix4 b n (⟨q.val / 16, by omega⟩ : Fin 67) (⟨q.val % 16, Nat.mod_lt _ (by decide)⟩ : Fin 16)) k
      = ix4 b n k (⟨q.val / 16, by omega⟩ : Fin 67) := funext fun a => by
    match a with | ⟨0, _⟩ => rfl | ⟨1, _⟩ => rfl | ⟨2, _⟩ => rfl | ⟨3, _⟩ => rfl
  have er8 : ridx_main_v8 (ix4 b n (⟨q.val / 16, by omega⟩ : Fin 67) (⟨q.val % 16, Nat.mod_lt _ (by decide)⟩ : Fin 16)) k
      = ix4 b n k (⟨q.val % 16, Nat.mod_lt _ (by decide)⟩ : Fin 16) := funext fun a => by
    match a with | ⟨0, _⟩ => rfl | ⟨1, _⟩ => rfl | ⟨2, _⟩ => rfl | ⟨3, _⟩ => rfl
  rw [el, er8]
  refine congrArg (· * x2 _) ?_
  unfold val_main_v7
  exact cat_apply (val_main_v6 (F := Ideal) x0 x1) x3 b n k _

end Cert.ReferenceIdeal.RefValue

end
-- ==== Proof.HostPre.lean ====
import proofs.«415205_j8967891714686_4_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HostPre

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The three reshapes [2, 65536, 16, C] → [131072, 16, C] read at an entry -/

section Rows
variable {α : Type}

/-- Flattening the two leading axes: row b·65536 + n of the result is row (b, n) of the operand, the two having the same row-major position. -/
theorem rows64_apply (y : S2x65536x16x64.Idx → α) (b : Fin 2) (n : Fin 65536) (k : Fin 16) (ch : Fin 64) :
    shapeCast S131072x16x64 y shapeCasts_S2x65536x16x64_S131072x16x64
        (ix3 (⟨b.val * 65536 + n.val, by have := b.isLt; have := n.isLt; omega⟩ : Fin 131072) k ch) = y (ix4 b n k ch) := by
  refine shapeCast_apply y shapeCasts_S2x65536x16x64_S131072x16x64 _ (ix4 b n k ch) ?_
  rw [Shape.rowMajor_val_four, Shape.rowMajor_val_three]
  rfl

/-- The same for the relative positions' three channels. -/
theorem rows3_apply (y : S2x65536x16x3.Idx → α) (b : Fin 2) (n : Fin 65536) (k : Fin 16) (ch : Fin 3) :
    shapeCast S131072x16x3 y shapeCasts_S2x65536x16x3_S131072x16x3
        (ix3 (⟨b.val * 65536 + n.val, by have := b.isLt; have := n.isLt; omega⟩ : Fin 131072) k ch) = y (ix4 b n k ch) := by
  refine shapeCast_apply y shapeCasts_S2x65536x16x3_S131072x16x3 _ (ix4 b n k ch) ?_
  rw [Shape.rowMajor_val_four, Shape.rowMajor_val_three]
  rfl

/-- The same for the sixteen kernel weights of a neighbour. -/
theorem rows16_apply (y : S2x65536x16x16.Idx → α) (b : Fin 2) (n : Fin 65536) (k : Fin 16) (j : Fin 16) :
    shapeCast S131072x16x16 y shapeCasts_S2x65536x16x16_S131072x16x16
        (ix3 (⟨b.val * 65536 + n.val, by have := b.isLt; have := n.isLt; omega⟩ : Fin 131072) k j) = y (ix4 b n k j) := by
  refine shapeCast_apply y shapeCasts_S2x65536x16x16_S131072x16x16 _ (ix4 b n k j) ?_
  rw [Shape.rowMajor_val_four, Shape.rowMajor_val_three]
  rfl

end Rows

/-! ## The gather along axis 1 read at an entry -/

section GatherCols
variable {α : Type} {w : ℕ}

/-- Operand axis 0 is the offset axis: the result's own coordinate, nothing added. -/
theorem cols_axis0 (idx : IVec S1072x1 w) (o : Fin 128) (q : Fin 1072) :
    ((gather_S128x1072_S1072x1_S128x1072_0_1_n_n_1_1_1281).operandIdx (ix2 o q) idx 0).val = o.val := by
  have hs : (gather_S128x1072_S1072x1_S128x1072_0_1_n_n_1_1_1281).start (ix2 o q) idx 0 = 0 := by
    unfold GatherDims.start
    exact dif_neg (by decide)
  have hb : (gather_S128x1072_S1072x1_S128x1072_0_1_n_n_1_1_1281).batchCoord (ix2 o q) 0 = 0 :=
    GatherDims.batchCoord_eq_zero _ _ _ (by decide)
  have ho : (gather_S128x1072_S1072x1_S128x1072_0_1_n_n_1_1_1281).offCoord (ix2 o q) 0 = o.val := by
    unfold GatherDims.offCoord
    rw [dif_pos (by decide)]
    rfl
  show (gather_S128x1072_S1072x1_S128x1072_0_1_n_n_1_1_1281).start (ix2 o q) idx 0 + (gather_S128x1072_S1072x1_S128x1072_0_1_n_n_1_1_1281).batchCoord (ix2 o q) 0 + (gather_S128x1072_S1072x1_S128x1072_0_1_n_n_1_1_1281).offCoord (ix2 o q) 0 = o.val
  rw [hs, hb, ho]
  omega

/-- Operand axis 1 is collapsed and indexed: the start index of the result's column, read signed and clamped into [0, 1071]. -/
theorem cols_axis1 (idx : IVec S1072x1 w) (o : Fin 128) (q : Fin 1072) :
    ((gather_S128x1072_S1072x1_S128x1072_0_1_n_n_1_1_1281).operandIdx (ix2 o q) idx 1).val = min (idx (ix2 q (0 : Fin 1))).toInt.toNat 1071 := by
  have hs : (gather_S128x1072_S1072x1_S128x1072_0_1_n_n_1_1_1281).start (ix2 o q) idx 1 = min (idx (ix2 q (0 : Fin 1))).toInt.toNat 1071 := by
    unfold GatherDims.start
    rw [dif_pos (show (1 : Fin S128x1072.rank) ∈ (gather_S128x1072_S1072x1_S128x1072_0_1_n_n_1_1_1281).startIndexMap by decide)]
    have hsi : (gather_S128x1072_S1072x1_S128x1072_0_1_n_n_1_1_1281).siIdx (ix2 o q) ⟨List.idxOf (1 : Fin S128x1072.rank) (gather_S128x1072_S1072x1_S128x1072_0_1_n_n_1_1_1281).startIndexMap,
        List.idxOf_lt_length_iff.2 (by decide)⟩ = ix2 q (0 : Fin 1) := by
      funext b; refine Fin.ext ?_
      match b with
      | ⟨0, _⟩ => rfl
      | ⟨1, _⟩ => rfl
    rw [hsi]
    rfl
  have hb : (gather_S128x1072_S1072x1_S128x1072_0_1_n_n_1_1_1281).batchCoord (ix2 o q) 1 = 0 :=
    GatherDims.batchCoord_eq_zero _ _ _ (by decide)
  have ho : (gather_S128x1072_S1072x1_S128x1072_0_1_n_n_1_1_1281).offCoord (ix2 o q) 1 = 0 :=
    GatherDims.offCoord_eq_zero _ _ _ (by decide)
  show (gather_S128x1072_S1072x1_S128x1072_0_1_n_n_1_1_1281).start (ix2 o q) idx 1 + (gather_S128x1072_S1072x1_S128x1072_0_1_n_n_1_1_1281).batchCoord (ix2 o q) 1 + (gather_S128x1072_S1072x1_S128x1072_0_1_n_n_1_1_1281).offCoord (ix2 o q) 1 = _
  rw [hs, hb, ho]
  omega

/-- THE GATHER READ AT (o, q): row o of the operand at the column the start index of q names. -/
theorem gather_cols_apply (x : S128x1072.Idx → α) (idx : IVec S1072x1 w) (o : Fin 128) (q : Fin 1072) :
    Host.gather gather_S128x1072_S1072x1_S128x1072_0_1_n_n_1_1_1281 x idx (ix2 o q)
      = x (ix2 o (⟨min (idx (ix2 q (0 : Fin 1))).toInt.toNat 1071, by omega⟩ : Fin 1072)) := by
  unfold Host.gather
  refine congrArg x (funext fun a => Fin.ext ?_)
  match a with
  | ⟨0, _⟩ => exact cols_axis0 idx o q
  | ⟨1, _⟩ => exact cols_axis1 idx o q

end GatherCols

/-! ## The transpose and the split of the rows -/

/-- Entry (j, ch, o) of the [16, 67, 128] array is entry (o, j · 67 + ch) of the [128, 1072] one. -/
theorem weights_apply {α : Type} (y : S128x1072.Idx → α) (j : Fin 16) (ch : Fin 67) (o : Fin 128) :
    shapeCast S16x67x128 (transpose S1072x128 [1, 0] y transposes_S128x1072_S1072x128_1_0) shapeCasts_S1072x128_S16x67x128 (ix3 j ch o)
      = y (ix2 o (⟨j.val * 67 + ch.val, by have := j.isLt; have := ch.isLt; omega⟩ : Fin 1072)) := by
  rw [shapeCast_apply _ shapeCasts_S1072x128_S16x67x128 (ix3 j ch o)
    (ix2 (⟨j.val * 67 + ch.val, by have := j.isLt; have := ch.isLt; omega⟩ : Fin 1072) o)
    (by rw [Shape.rowMajor_val_two, Shape.rowMajor_val_three]; rfl)]
  exact transpose_ix2_apply y transposes_S128x1072_S1072x128_1_0 _ o

/-! ## The linear layer's weights: the columns gathered at a literal permutation (an index out of range would read the fill value)

The permutation is a literal table of 1072 words, entry r being (r % 67) · 16 + r / 67. Every stage is read at an index over a
VARIABLE table p whose entries are words n < 1072; the literal table is put in last. -/

section Take

open Idealize.ShloMosaic.StableHlo.Predicate

/-- A word n < 1072, read signed: it is not negative, it lies in [0, 1071], and its value is n. -/
theorem word_facts (n : ℕ) (hn : n < 1072) :
    IntOp.cmpi .slt (BitVec.ofNat 32 n) 0#32 = 0#1 ∧ IntOp.cmpi .sge (BitVec.ofNat 32 n) 0#32 = 1#1
      ∧ IntOp.cmpi .sle (BitVec.ofNat 32 n) 1071#32 = 1#1 ∧ (BitVec.ofNat 32 n).toInt.toNat = n := by
  have hN : (BitVec.ofNat 32 n).toNat = n := by rw [BitVec.toNat_ofNat]; exact Nat.mod_eq_of_lt (by omega)
  have h31 : (BitVec.ofNat 32 n).toNat < 2 ^ 31 := by rw [hN]; omega
  have z31 : (0#32).toNat < 2 ^ 31 := by decide
  have c31 : (1071#32).toNat < 2 ^ 31 := by decide
  refine ⟨eq_zero_of_ne_one fun h => ?_, (sge_iff_toNat h31 z31).2 (Nat.zero_le _), (sle_iff_toNat h31 c31).2 ?_, ?_⟩
  · exact absurd ((slt_iff_toNat h31 z31).1 h) (Nat.not_lt_zero _)
  · rw [hN]; show n ≤ 1071; omega
  · rw [toInt_ofNat_small n (by omega)]; exact Int.toNat_natCast n

/-- A left fold of the one-bit and over ones, from one, is one. -/
theorem foldl_andi_ones {ι : Type} (g : ι → BitVec 1) :
    ∀ (l : List ι) (init : BitVec 1), init = 1#1 → (∀ i ∈ l, g i = 1#1) → l.foldl (fun r i => IntOp.andi r (g i)) init = 1#1
  | [], _, h0, _ => h0
  | a :: l, init, h0, h => by
    rw [List.foldl_cons]
    refine foldl_andi_ones g l _ ?_ (fun i hi => h i (List.mem_cons_of_mem _ hi))
    rw [h0, h a List.mem_cons_self]; rfl

/-- %4 of the take: an index below zero is counted from the end. -/
def wrapped (p : IVec S1072 32) : IVec S1072 32 :=
  select (cmpi .slt p (broadcastInDim S1072 ![] bcast_S_S1072 (constantI S_ 32 0#32)))
    (addi p (broadcastInDim S1072 ![] bcast_S_S1072 (constantI S_ 32 1072#32))) p

/-- %5: the start indices, one per result column. -/
def starts (p : IVec S1072 32) : IVec S1072x1 32 := broadcastInDim S1072x1 ![0] bcast_S1072_S1072x1_0 (wrapped p)

/-- %12: per column, whether the start index lies in [0, 1071]. -/
def inRange (p : IVec S1072 32) : IVec S1072 1 :=
  Host.reduce IntOp.andi
    (andi (cmpi .sge (starts p) (broadcastInDim S1072x1 ![] bcast_S_S1072x1 (constantI S_ 32 0#32)))
      (cmpi .sle (starts p) (broadcastInDim S1072x1 ![0, 1] bcast_S1x1_S1072x1_0_1
        (broadcastInDim S1x1 ![1] bcast_S1_S1x1_1 (constantI S1 32 1071#32)))))
    (constantI S_ 1 1#1) reducesTo_S1072x1_S1072_d1 h_S_

/-- %16: the gathered columns where the index is in range, the fill value elsewhere. -/
def taken (x : FVec Ideal S128x1072 .f32) (p : IVec S1072 32) : FVec Ideal S128x1072 .f32 :=
  select (broadcastInDim S128x1072 ![1] bcast_S1072_S128x1072_1 (inRange p))
    (Host.gather gather_S128x1072_S1072x1_S128x1072_0_1_n_n_1_1_1281 x (starts p))
    (broadcastInDim S128x1072 ![] bcast_S_S128x1072 (constant (F := Ideal) S_ .f32 0x7FC00000#32))

variable (p : IVec S1072 32) (f : Fin 1072 → ℕ) (hf : ∀ q, f q < 1072) (hp : ∀ q : Fin 1072, p (ix1 q) = BitVec.ofNat 32 (f q))
include hf hp

/-- A table entry that is not negative stays as it is. -/
theorem wrapped_apply (q : Fin 1072) : wrapped p (ix1 q) = BitVec.ofNat 32 (f q) := by
  show Scalar.select (IntOp.cmpi .slt (p (ix1 q)) 0#32) (IntOp.addi (p (ix1 q)) 1072#32) (p (ix1 q)) = _
  rw [hp q, (word_facts _ (hf q)).1, select_zero]

omit hf hp in
/-- The start index of column q is the wrapped entry q. -/
theorem starts_apply (q : Fin 1072) (z : Fin 1) : starts p (ix2 q z) = wrapped p (ix1 q) := by
  unfold starts
  exact broadcastInDim_apply _ _ _ (ix2 q z) (ix1 q) (fun a => match a with | ⟨0, _⟩ => rfl)

/-- Every start index is in range. -/
theorem inRange_apply (q : Fin 1072) : inRange p (ix1 q) = 1#1 := by
  unfold inRange
  rw [Host.reduce_eq_foldl]
  refine foldl_andi_ones _ _ _ rfl (fun i _ => ?_)
  obtain ⟨r, z, rfl⟩ : ∃ (r : Fin 1072) (z : Fin 1), i = ix2 r z := ⟨i 0, i 1, eq_ix2 i⟩
  show IntOp.andi (IntOp.cmpi .sge (starts p (ix2 r z)) 0#32) (IntOp.cmpi .sle (starts p (ix2 r z)) 1071#32) = 1#1
  rw [starts_apply, wrapped_apply p f hf hp, (word_facts _ (hf r)).2.1, (word_facts _ (hf r)).2.2.1]
  rfl

/-- Where every table entry is a word f q < 1072, column q of the result is column f q of the operand: the mask is one,
    so the select takes the gathered value, and the clamp leaves the start index as it is. -/
theorem taken_apply (x : FVec Ideal S128x1072 .f32) (o : Fin 128) (q : Fin 1072) :
    taken x p (ix2 o q) = x (ix2 o (⟨f q, hf q⟩ : Fin 1072)) := by
  unfold taken
  rw [select_apply]
  have hm : broadcastInDim S128x1072 ![1] bcast_S1072_S128x1072_1 (inRange p) (ix2 o q) = 1#1 := by
    rw [broadcastInDim_apply _ _ _ (ix2 o q) (ix1 q) (fun a => match a with | ⟨0, _⟩ => rfl)]
    exact inRange_apply p f hf hp q
  rw [hm, select_one, gather_cols_apply]
  refine congrArg x (congrArg (fun r : Fin 1072 => ix2 o r) (Fin.ext ?_))
  show min (starts p (ix2 q (0 : Fin 1))).toInt.toNat 1071 = f q
  rw [starts_apply, wrapped_apply p f hf hp, (word_facts _ (hf q)).2.2.2]
  exact Nat.min_eq_left (by have := hf q; omega)

end Take

/-! ## The literal table -/

/-- Entry r of the literal permutation is (r % 67) · 16 + r / 67: all 1072 entries, checked one by one. -/
theorem lit0_eq : ∀ i : Fin 1072, lit0 i = BitVec.ofNat 32 ((i.val % 67) * 16 + i.val / 67) := by decide +kernel

/-- The permutation as @main's constant holds it: the 1072 words row-major. -/
def perm : IVec S1072 32 := fun i => lit0 (S1072.rowMajor i)

theorem perm_apply (q : Fin 1072) : perm (ix1 q) = BitVec.ofNat 32 ((q.val % 67) * 16 + q.val / 67) := by
  have hr : (S1072.rowMajor (ix1 q) : Fin 1072) = q := Fin.ext (Shape.rowMajor_val_one (ix1 q))
  show lit0 (S1072.rowMajor (ix1 q)) = _
  rw [hr]
  exact lit0_eq q

/-- The neighbours' features as @main gathers them: row `idx` of the point's batch, a negative index counted from the end. -/
def gathered (x0 : (⟨S2x65536x64, .f32⟩ : BufTy).Contents (Elt Ideal)) (x1 : (⟨S2x65536x16, .i32⟩ : BufTy).Contents (Elt Ideal)) :
    (⟨S2x65536x16x64, .f32⟩ : BufTy).Contents (Elt Ideal) :=
  Host.gather gather_S2x65536x64_S2x65536x16x1_S2x65536x16x64_3_1_0_0_1_3_1164 x0
    (broadcastInDim S2x65536x16x1 ![0, 1, 2] bcast_S2x65536x16_S2x65536x16x1_0_1_2
      (select (cmpi .slt x1 (broadcastInDim S2x65536x16 ![] bcast_S_S2x65536x16 (constantI S_ 32 0#32)))
        (addi x1 (broadcastInDim S2x65536x16 ![] bcast_S_S2x65536x16 (constantI S_ 32 65536#32))) x1))

/-- Row `r = b·65536 + n` of the flattened gathered features is point (b, n)'s. -/
theorem V_main_v7_apply (c : Dev nD) (b : Fin 2) (n : Fin 65536) (k : Fin 16) (ch : Fin 64) :
    (V m c main_v7 : S131072x16x64.Idx → EReal) (ix3 (⟨b.val * 65536 + n.val, by have := b.isLt; have := n.isLt; omega⟩ : Fin 131072) k ch)
      = gathered (m ((c : Thread nD τ).loc main_arg0)) (m ((c : Thread nD τ).loc main_arg1)) (ix4 b n k ch) := by
  have e : (V m c main_v7 : S131072x16x64.Idx → EReal)
      = shapeCast S131072x16x64 (gathered (m ((c : Thread nD τ).loc main_arg0)) (m ((c : Thread nD τ).loc main_arg1)) : S2x65536x16x64.Idx → EReal)
          shapeCasts_S2x65536x16x64_S131072x16x64 := by
    unfold gathered
    dsimp only [Gen.V, Gen.V0]
    simp only [Gen.hostOps0, Gen.hostOps0_1, Gen.hostOps0_2, List.flatten_cons, List.flatten_nil, List.append_nil, List.cons_append, List.nil_append]
    after_results
    rfl
  rw [e]
  exact rows64_apply _ b n k ch

theorem V_main_v8_apply (c : Dev nD) (b : Fin 2) (n : Fin 65536) (k : Fin 16) (ch : Fin 3) :
    (V m c main_v8 : S131072x16x3.Idx → EReal) (ix3 (⟨b.val * 65536 + n.val, by have := b.isLt; have := n.isLt; omega⟩ : Fin 131072) k ch)
      = (m ((c : Thread nD τ).loc main_arg3) : S2x65536x16x3.Idx → EReal) (ix4 b n k ch) := by
  have e : (V m c main_v8 : S131072x16x3.Idx → EReal)
      = shapeCast S131072x16x3 (m ((c : Thread nD τ).loc main_arg3) : S2x65536x16x3.Idx → EReal) shapeCasts_S2x65536x16x3_S131072x16x3 := by
    dsimp only [Gen.V, Gen.V0]
    simp only [Gen.hostOps0, Gen.hostOps0_1, Gen.hostOps0_2, List.flatten_cons, List.flatten_nil, List.append_nil, List.cons_append, List.nil_append]
    after_results
    rfl
  rw [e]
  exact rows3_apply _ b n k ch

theorem V_main_v9_apply (c : Dev nD) (b : Fin 2) (n : Fin 65536) (k : Fin 16) (j : Fin 16) :
    (V m c main_v9 : S131072x16x16.Idx → EReal) (ix3 (⟨b.val * 65536 + n.val, by have := b.isLt; have := n.isLt; omega⟩ : Fin 131072) k j)
      = (m ((c : Thread nD τ).loc main_arg2) : S2x65536x16x16.Idx → EReal) (ix4 b n k j) := by
  have e : (V m c main_v9 : S131072x16x16.Idx → EReal)
      = shapeCast S131072x16x16 (m ((c : Thread nD τ).loc main_arg2) : S2x65536x16x16.Idx → EReal) shapeCasts_S2x65536x16x16_S131072x16x16 := by
    dsimp only [Gen.V, Gen.V0]
    simp only [Gen.hostOps0, Gen.hostOps0_1, Gen.hostOps0_2, List.flatten_cons, List.flatten_nil, List.append_nil, List.cons_append, List.nil_append]
    after_results
    rfl
  rw [e]
  exact rows16_apply _ b n k j

/-- The linear layer's weights as the region finds them: entry (j, ch, o) is the layer's weight of output `o` at column `ch·16 + j`. -/
theorem V_main_v12_apply (c : Dev nD) (j : Fin 16) (ch : Fin 67) (o : Fin 128) :
    (V m c main_v12 : S16x67x128.Idx → EReal) (ix3 j ch o)
      = (m ((c : Thread nD τ).loc main_arg4) : S128x1072.Idx → EReal)
          (ix2 o (⟨ch.val * 16 + j.val, by have := ch.isLt; have := j.isLt; omega⟩ : Fin 1072)) := by
  have e : (V m c main_v12 : S16x67x128.Idx → EReal)
      = shapeCast S16x67x128 (transpose S1072x128 [1, 0] (taken (m ((c : Thread nD τ).loc main_arg4) : S128x1072.Idx → EReal) perm)
          transposes_S128x1072_S1072x128_1_0) shapeCasts_S1072x128_S16x67x128 := by
    unfold taken inRange starts wrapped perm
    dsimp only [Gen.V, Gen.V0]
    simp only [Gen.hostOps0, Gen.hostOps0_1, Gen.hostOps0_2, List.flatten_cons, List.flatten_nil, List.append_nil, List.cons_append, List.nil_append]
    after_results_simp
    simp only [StableHlo.TRef.ofBuf, StableHlo.TRef.toBuf, cast_eq]
    rfl
  rw [e, weights_apply, taken_apply perm (fun q => q.val % 67 * 16 + q.val / 67) (fun q => by have := q.isLt; omega) perm_apply]
  refine congrArg _ (congrArg (fun r : Fin 1072 => ix2 o r) (Fin.ext ?_))
  have hj := j.isLt; have hc := ch.isLt
  show (j.val * 67 + ch.val) % 67 * 16 + (j.val * 67 + ch.val) / 67 = ch.val * 16 + j.val
  omega

end Cert.KernelIdeal.HostPre

end
-- ==== Proof.Payload.lean ====
import proofs.«415205_j8967891714686_4_alg».proof.Proof.Gen.KernelIdeal.Frame
import proofs.«415205_j8967891714686_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The operand indices of the two products

The batched product [256,16,16] x [256,16,67] -> [256,16,67] has batch axis 0 and contracts axis 1 of both operands; the
plain product [256,67] x [67,128] -> [256,128] contracts the left operand's axis 1 with the right operand's axis 0. Each
lemma below reads one coordinate of an operand index at an output index and a contraction index. -/

theorem lhs_D1_0 (i : S256x16x67.Idx) (q : dot_S256x16x16_S256x16x67_S256x16x67_1_1_2_2_0_0.contr.Idx) :
    (dot_S256x16x16_S256x16x67_S256x16x67_1_1_2_2_0_0.lhsIdx i q 0).val = (i 0).val := by
  unfold DotDims.lhsIdx
  rw [dif_pos (show (0 : Fin S256x16x16.rank) ∈ dot_S256x16x16_S256x16x67_S256x16x67_1_1_2_2_0_0.lhsBatch by decide)]
  rfl
theorem lhs_D1_1 (i : S256x16x67.Idx) (q : dot_S256x16x16_S256x16x67_S256x16x67_1_1_2_2_0_0.contr.Idx) :
    (dot_S256x16x16_S256x16x67_S256x16x67_1_1_2_2_0_0.lhsIdx i q 1).val = (q ⟨0, by decide⟩).val :=
  dot_S256x16x16_S256x16x67_S256x16x67_1_1_2_2_0_0.lhsIdx_val_of_single rfl i q
theorem lhs_D1_2 (i : S256x16x67.Idx) (q : dot_S256x16x16_S256x16x67_S256x16x67_1_1_2_2_0_0.contr.Idx) :
    (dot_S256x16x16_S256x16x67_S256x16x67_1_1_2_2_0_0.lhsIdx i q 2).val = (i 1).val := by
  unfold DotDims.lhsIdx
  rw [dif_neg (show ¬(2 : Fin S256x16x16.rank) ∈ dot_S256x16x16_S256x16x67_S256x16x67_1_1_2_2_0_0.lhsBatch by decide), dif_pos (show (2 : Fin S256x16x16.rank) ∈ dot_S256x16x16_S256x16x67_S256x16x67_1_1_2_2_0_0.lhsNonContracting by decide)]
  rfl
theorem rhs_D1_0 (i : S256x16x67.Idx) (q : dot_S256x16x16_S256x16x67_S256x16x67_1_1_2_2_0_0.contr.Idx) :
    (dot_S256x16x16_S256x16x67_S256x16x67_1_1_2_2_0_0.rhsIdx i q 0).val = (i 0).val := by
  unfold DotDims.rhsIdx
  rw [dif_pos (show (0 : Fin S256x16x67.rank) ∈ dot_S256x16x16_S256x16x67_S256x16x67_1_1_2_2_0_0.rhsBatch by decide)]
  rfl
theorem rhs_D1_1 (i : S256x16x67.Idx) (q : dot_S256x16x16_S256x16x67_S256x16x67_1_1_2_2_0_0.contr.Idx) :
    (dot_S256x16x16_S256x16x67_S256x16x67_1_1_2_2_0_0.rhsIdx i q 1).val = (q ⟨0, by decide⟩).val :=
  dot_S256x16x16_S256x16x67_S256x16x67_1_1_2_2_0_0.rhsIdx_val_of_single rfl i q
theorem rhs_D1_2 (i : S256x16x67.Idx) (q : dot_S256x16x16_S256x16x67_S256x16x67_1_1_2_2_0_0.contr.Idx) :
    (dot_S256x16x16_S256x16x67_S256x16x67_1_1_2_2_0_0.rhsIdx i q 2).val = (i 2).val := by
  unfold DotDims.rhsIdx
  rw [dif_neg (show ¬(2 : Fin S256x16x67.rank) ∈ dot_S256x16x16_S256x16x67_S256x16x67_1_1_2_2_0_0.rhsBatch by decide), dif_pos (show (2 : Fin S256x16x67.rank) ∈ dot_S256x16x16_S256x16x67_S256x16x67_1_1_2_2_0_0.rhsNonContracting by decide)]
  rfl

theorem lhs_D2_0 (i : S256x128.Idx) (q : dot_S256x67_S67x128_S256x128_1_0_0_1_n_n.contr.Idx) :
    (dot_S256x67_S67x128_S256x128_1_0_0_1_n_n.lhsIdx i q 0).val = (i 0).val := by
  unfold DotDims.lhsIdx
  rw [dif_neg (show ¬(0 : Fin S256x67.rank) ∈ dot_S256x67_S67x128_S256x128_1_0_0_1_n_n.lhsBatch by decide), dif_pos (show (0 : Fin S256x67.rank) ∈ dot_S256x67_S67x128_S256x128_1_0_0_1_n_n.lhsNonContracting by decide)]
  rfl
theorem lhs_D2_1 (i : S256x128.Idx) (q : dot_S256x67_S67x128_S256x128_1_0_0_1_n_n.contr.Idx) :
    (dot_S256x67_S67x128_S256x128_1_0_0_1_n_n.lhsIdx i q 1).val = (q ⟨0, by decide⟩).val :=
  dot_S256x67_S67x128_S256x128_1_0_0_1_n_n.lhsIdx_val_of_single rfl i q
theorem rhs_D2_0 (i : S256x128.Idx) (q : dot_S256x67_S67x128_S256x128_1_0_0_1_n_n.contr.Idx) :
    (dot_S256x67_S67x128_S256x128_1_0_0_1_n_n.rhsIdx i q 0).val = (q ⟨0, by decide⟩).val :=
  dot_S256x67_S67x128_S256x128_1_0_0_1_n_n.rhsIdx_val_of_single rfl i q
theorem rhs_D2_1 (i : S256x128.Idx) (q : dot_S256x67_S67x128_S256x128_1_0_0_1_n_n.contr.Idx) :
    (dot_S256x67_S67x128_S256x128_1_0_0_1_n_n.rhsIdx i q 1).val = (i 1).val := by
  unfold DotDims.rhsIdx
  rw [dif_neg (show ¬(1 : Fin S67x128.rank) ∈ dot_S256x67_S67x128_S256x128_1_0_0_1_n_n.rhsBatch by decide), dif_pos (show (1 : Fin S67x128.rank) ∈ dot_S256x67_S67x128_S256x128_1_0_0_1_n_n.rhsNonContracting by decide)]
  rfl

/-! ## The batched product: the weight-net columns applied to the feature rows -/

/-- The concatenation of the gathered and the additional channels, read at an entry, is the feature row of the point. -/
theorem cat_apply (v0 : Vec Ideal S256x16x64 .f32) (v2 : Vec Ideal S256x16x3 .f32) (p : Fin 256) (k : Fin 16) (c : Fin 67) :
    concatenate S256x16x67 2 [⟨S256x16x64, v0⟩, ⟨S256x16x3, v2⟩] concatenates_S256x16x64_S256x16x3_S256x16x67_d2 (ix3 p k c)
      = Cert.PConv.catRow (fun k c => v0 (ix3 p k c)) (fun k c => v2 (ix3 p k c)) k c := by
  unfold Cert.PConv.catRow
  by_cases h : c.val < 64
  · rw [dif_pos h]
    refine concatenate_pair_apply_left (2 : Fin S256x16x67.rank) v0 v2 concatenates_S256x16x64_S256x16x3_S256x16x67_d2 (ix3 p k c) rfl
      (ix3 p k ⟨c.val, h⟩) (fun b => ?_)
    match b with
    | ⟨0, _⟩ => rfl
    | ⟨1, _⟩ => rfl
    | ⟨2, _⟩ => rfl
  · rw [dif_neg h]
    refine concatenate_pair_apply_right (2 : Fin S256x16x67.rank) v0 v2 concatenates_S256x16x64_S256x16x3_S256x16x67_d2 (ix3 p k c) rfl rfl
      (ix3 p k ⟨c.val - 64, by have := c.isLt; omega⟩) (fun b hb => ?_) ?_
    · match b with
      | ⟨0, _⟩ => rfl
      | ⟨1, _⟩ => rfl
      | ⟨2, _⟩ => exact absurd rfl hb
    · show c.val - 64 + 64 = c.val
      omega

/-- The batched product at an entry: the sum over the 16 neighbours of the weight-net entry times the feature entry. -/
theorem pay2_apply (v0 : Vec Ideal S256x16x64 .f32) (v2 : Vec Ideal S256x16x3 .f32) (v4 : Vec Ideal S256x16x16 .f32)
    (p : Fin 256) (j : Fin 16) (c : Fin 67) :
    k0_pay2 (F := Ideal) v0 v2 v4 (ix3 p j c)
      = ∑ k : Fin 16, v4 (ix3 p k j) * Cert.PConv.catRow (fun k c => v0 (ix3 p k c)) (fun k c => v2 (ix3 p k c)) k c := by
  unfold k0_pay2
  simp only [matmul]
  rw [shapeCast_self v0, shapeCast_self v2, shapeCast_self v4]
  rw [Ideal.matmul_constant_zero_apply, ← Equiv.sum_comp (contrEquiv1 dot_S256x16x16_S256x16x67_S256x16x67_1_1_2_2_0_0 16 rfl rfl).symm]
  refine Finset.sum_congr rfl fun k _ => ?_
  have hk := contrEquiv1_symm_val dot_S256x16x16_S256x16x67_S256x16x67_1_1_2_2_0_0 16 rfl rfl k
  have el : dot_S256x16x16_S256x16x67_S256x16x67_1_1_2_2_0_0.lhsIdx (ix3 p j c) ((contrEquiv1 dot_S256x16x16_S256x16x67_S256x16x67_1_1_2_2_0_0 16 rfl rfl).symm k) = ix3 p k j := funext fun a => Fin.ext (by
    match a with
    | ⟨0, _⟩ => exact lhs_D1_0 _ _
    | ⟨1, _⟩ => exact (lhs_D1_1 _ _).trans hk
    | ⟨2, _⟩ => exact lhs_D1_2 _ _)
  have er : dot_S256x16x16_S256x16x67_S256x16x67_1_1_2_2_0_0.rhsIdx (ix3 p j c) ((contrEquiv1 dot_S256x16x16_S256x16x67_S256x16x67_1_1_2_2_0_0 16 rfl rfl).symm k) = ix3 p k c := funext fun a => Fin.ext (by
    match a with
    | ⟨0, _⟩ => exact rhs_D1_0 _ _
    | ⟨1, _⟩ => exact (rhs_D1_1 _ _).trans hk
    | ⟨2, _⟩ => exact rhs_D1_2 _ _)
  rw [el, er, cat_apply]

/-! ## One of the sixteen terms: a slice of the batched product times a row of the re-laid weights -/

/-- Slice j of the batched product (its middle axis dropped) times a [1,67,128] block (its leading axis dropped), into a
    zero accumulator, at an entry: the sum over the 67 feature channels. -/
theorem term_apply (v7 : FVec Ideal S256x16x67 .f32) (l : FVec Ideal S1x67x128 .f32) (j : Fin 16)
    (hs : S256x16x67.Slices ![0, j.val, 0] S256x1x67) (p : Fin 256) (o : Fin 128) :
    matmul dot_S256x67_S67x128_S256x128_1_0_0_1_n_n (some .fp32)
      (shapeCast S256x67 (extractStridedSlice S256x1x67 ![0, j.val, 0] v7 hs) shapeCasts_S256x1x67_S256x67)
      (shapeCast S67x128 l shapeCasts_S1x67x128_S67x128)
      (constant (F := Ideal) S256x128 .f32 0x00000000#32) (ix2 p o)
    = ∑ c : Fin 67, v7 (ix3 p j c) * l (ix3 (0 : Fin 1) c o) := by
  simp only [matmul]
  rw [Ideal.matmul_constant_zero_apply, ← Equiv.sum_comp (contrEquiv1 dot_S256x67_S67x128_S256x128_1_0_0_1_n_n 67 rfl rfl).symm]
  refine Finset.sum_congr rfl fun c _ => ?_
  have hk := contrEquiv1_symm_val dot_S256x67_S67x128_S256x128_1_0_0_1_n_n 67 rfl rfl c
  have el : dot_S256x67_S67x128_S256x128_1_0_0_1_n_n.lhsIdx (ix2 p o) ((contrEquiv1 dot_S256x67_S67x128_S256x128_1_0_0_1_n_n 67 rfl rfl).symm c) = ix2 p c := funext fun a => Fin.ext (by
    match a with
    | ⟨0, _⟩ => exact lhs_D2_0 _ _
    | ⟨1, _⟩ => exact (lhs_D2_1 _ _).trans hk)
  have er : dot_S256x67_S67x128_S256x128_1_0_0_1_n_n.rhsIdx (ix2 p o) ((contrEquiv1 dot_S256x67_S67x128_S256x128_1_0_0_1_n_n 67 rfl rfl).symm c) = ix2 c o := funext fun a => Fin.ext (by
    match a with
    | ⟨0, _⟩ => exact (rhs_D2_0 _ _).trans hk
    | ⟨1, _⟩ => exact rhs_D2_1 _ _)
  rw [el, er, shapeCast_1ab_ab_apply]
  congr 1
  refine (shapeCast_apply _ shapeCasts_S256x1x67_S256x67 (ix2 p c) (ix3 p (0 : Fin 1) c) ?_).trans ?_
  · rw [Shape.rowMajor_val_three, Shape.rowMajor_val_two]
    show (p.val * 1 + 0) * 67 + c.val = p.val * 67 + c.val
    omega
  · exact slice3_axis1_apply j.val v7 hs p (0 : Fin 1) c j rfl

/-! ## A row of the re-laid weights, loaded -/

/-- The load of the [1,67,128] block at offset (j,0,0) of the re-laid weights, at (0,c,o), is the weight at (j,c,o). -/
theorem ld_row_apply (x3 : Vec Ideal S16x67x128 .f32) (j : Fin 16)
    (h : ∀ a, (![j.val, 0, 0] : Fin 3 → Nat) a + S1x67x128.size a ≤ S16x67x128.size a) (c : Fin 67) (o : Fin 128) :
    View.ld x3 (Rect.unit (s := S16x67x128) ![j.val, 0, 0] S1x67x128.size h) (ix3 (0 : Fin 1) c o) = x3 (ix3 j c o) := by
  show x3 _ = x3 _
  refine congrArg x3 (funext fun a => Fin.ext ?_)
  match a with
  | ⟨0, _⟩ => show j.val + 1 * 0 = j.val; omega
  | ⟨1, _⟩ => show 0 + 1 * c.val = c.val; omega
  | ⟨2, _⟩ => show 0 + 1 * o.val = o.val; omega

/-! ## The sixteen terms added one after the other, then the bias -/

/-- The partial sum over the 67 feature channels for weight-net channel j, at entry (p, o): a batched product v7 against
    a loaded [1,67,128] block l. -/
def rowTerm (v7 : FVec Ideal S256x16x67 .f32) (l : FVec Ideal S1x67x128 .f32) (j : Fin 16) (p : Fin 256) (o : Fin 128) : EReal :=
  ∑ c : Fin 67, v7 (ix3 p j c) * l (ix3 (0 : Fin 1) c o)

theorem addPair_congr {a a' b b' : EReal} (h1 : a = a') (h2 : b = b') : a + b = a' + b' := by rw [h1, h2]

/-- The first three terms, added onto the zero splat. -/
theorem pay3_apply (v0 : Vec Ideal S256x16x64 .f32) (v2 : Vec Ideal S256x16x3 .f32) (v4 : Vec Ideal S256x16x16 .f32)
    (l0 l1 l2 : FVec Ideal S1x67x128 .f32) (p : Fin 256) (o : Fin 128) :
    k0_pay3 (F := Ideal) v0 v2 v4 l0 l1 l2 (ix2 p o)
      = ((0 + rowTerm (k0_pay2 v0 v2 v4) l0 0 p o) + rowTerm (k0_pay2 v0 v2 v4) l1 1 p o) + rowTerm (k0_pay2 v0 v2 v4) l2 2 p o := by
  unfold k0_pay3
  simp only [addf_apply, broadcast_apply]
  refine addPair_congr (addPair_congr (addPair_congr ?_ ?_) ?_) ?_
  · show Ideal.ofBits .f32 0x00000000#32 = 0
    exact Ideal.ofBits_zero_f32
  · exact term_apply _ l0 0 _ p o
  · exact term_apply _ l1 1 _ p o
  · exact term_apply _ l2 2 _ p o

/-- The fourth term. -/
theorem pay4_apply (v0 : Vec Ideal S256x16x64 .f32) (v2 : Vec Ideal S256x16x3 .f32) (v4 : Vec Ideal S256x16x16 .f32)
    (l3 : FVec Ideal S1x67x128 .f32) (p : Fin 256) (o : Fin 128) :
    k0_pay4 (F := Ideal) v0 v2 v4 l3 (ix2 p o) = rowTerm (k0_pay2 v0 v2 v4) l3 3 p o := by
  unfold k0_pay4
  exact term_apply _ l3 3 _ p o

/-- Terms 4 to 8 added onto the running sum and the fourth term. -/
theorem pay5_apply (v7 : FVec Ideal S256x16x67 .f32) (a b : FVec Ideal S256x128 .f32)
    (l4 l5 l6 l7 l8 : FVec Ideal S1x67x128 .f32) (p : Fin 256) (o : Fin 128) :
    k0_pay5 (F := Ideal) v7 a b l4 l5 l6 l7 l8 (ix2 p o)
      = (((((a (ix2 p o) + b (ix2 p o)) + rowTerm v7 l4 4 p o) + rowTerm v7 l5 5 p o) + rowTerm v7 l6 6 p o)
          + rowTerm v7 l7 7 p o) + rowTerm v7 l8 8 p o := by
  unfold k0_pay5
  simp only [addf_apply]
  refine addPair_congr (addPair_congr (addPair_congr (addPair_congr (addPair_congr rfl ?_) ?_) ?_) ?_) ?_
  · exact term_apply v7 l4 4 _ p o
  · exact term_apply v7 l5 5 _ p o
  · exact term_apply v7 l6 6 _ p o
  · exact term_apply v7 l7 7 _ p o
  · exact term_apply v7 l8 8 _ p o

/-- The tenth term. -/
theorem pay6_apply (v7 : FVec Ideal S256x16x67 .f32) (l9 : FVec Ideal S1x67x128 .f32) (p : Fin 256) (o : Fin 128) :
    k0_pay6 (F := Ideal) v7 l9 (ix2 p o) = rowTerm v7 l9 9 p o := by
  unfold k0_pay6
  exact term_apply v7 l9 9 _ p o

/-- Terms 10 to 14 added onto the running sum and the tenth term. -/
theorem pay7_apply (v7 : FVec Ideal S256x16x67 .f32) (a b : FVec Ideal S256x128 .f32)
    (l10 l11 l12 l13 l14 : FVec Ideal S1x67x128 .f32) (p : Fin 256) (o : Fin 128) :
    k0_pay7 (F := Ideal) v7 a b l10 l11 l12 l13 l14 (ix2 p o)
      = (((((a (ix2 p o) + b (ix2 p o)) + rowTerm v7 l10 10 p o) + rowTerm v7 l11 11 p o) + rowTerm v7 l12 12 p o)
          + rowTerm v7 l13 13 p o) + rowTerm v7 l14 14 p o := by
  unfold k0_pay7
  simp only [addf_apply]
  refine addPair_congr (addPair_congr (addPair_congr (addPair_congr (addPair_congr rfl ?_) ?_) ?_) ?_) ?_
  · exact term_apply v7 l10 10 _ p o
  · exact term_apply v7 l11 11 _ p o
  · exact term_apply v7 l12 12 _ p o
  · exact term_apply v7 l13 13 _ p o
  · exact term_apply v7 l14 14 _ p o

/-- The last term. -/
theorem pay8_apply (v7 : FVec Ideal S256x16x67 .f32) (l15 : FVec Ideal S1x67x128 .f32) (p : Fin 256) (o : Fin 128) :
    k0_pay8 (F := Ideal) v7 l15 (ix2 p o) = rowTerm v7 l15 15 p o := by
  unfold k0_pay8
  exact term_apply v7 l15 15 _ p o

/-- The running sum plus the last term, plus the bias row broadcast over the 256 points. -/
theorem pay1_apply (a b : FVec Ideal S256x128 .f32) (v : Vec Ideal S128 .f32) (p : Fin 256) (o : Fin 128) :
    k0_pay1 (F := Ideal) a b v (ix2 p o) = (a (ix2 p o) + b (ix2 p o)) + v (ix1 o) := by
  unfold k0_pay1
  simp only [addf_apply]
  refine addPair_congr rfl ?_
  rw [broadcastTo_1b_ab_apply, shapeCast_a_1a_apply]

/-- A term over the batched product of the loaded blocks and a loaded row of the re-laid weights is the kernel's
    partial sum of the specification. -/
theorem rowTerm_eq (x0 : Vec Ideal S256x16x64 .f32) (x1 : Vec Ideal S256x16x3 .f32) (x2 : Vec Ideal S256x16x16 .f32)
    (x3 : Vec Ideal S16x67x128 .f32) (j : Fin 16)
    (h : ∀ a, (![j.val, 0, 0] : Fin 3 → Nat) a + S1x67x128.size a ≤ S16x67x128.size a) (p : Fin 256) (o : Fin 128) :
    rowTerm (k0_pay2 x0 x1 x2) (View.ld x3 (Rect.unit (s := S16x67x128) ![j.val, 0, 0] S1x67x128.size h)) j p o
      = Cert.PConv.kerTerm (Cert.PConv.catRow (fun k c => x0 (ix3 p k c)) (fun k c => x1 (ix3 p k c)))
          (fun k j => x2 (ix3 p k j)) (fun j c => x3 (ix3 j c o)) j := by
  unfold rowTerm Cert.PConv.kerTerm
  refine Finset.sum_congr rfl fun c _ => ?_
  rw [pay2_apply, ld_row_apply]

/-! ## The stored block -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in the output block, entry by entry. -/
theorem out0_5_apply (x0 : Vec Ideal S256x16x64 .f32) (x1 : Vec Ideal S256x16x3 .f32) (x2 : Vec Ideal S256x16x16 .f32)
    (x3 : Vec Ideal S16x67x128 .f32) (x4 : Vec Ideal S128 .f32) (p : Fin 256) (o : Fin 128) :
    Gen.out0_5 (F := Ideal) x0 x1 x2 x3 x4 (ix2 p o)
      = Cert.PConv.kerRow (Cert.PConv.catRow (fun k c => x0 (ix3 p k c)) (fun k c => x1 (ix3 p k c)))
          (fun k j => x2 (ix3 p k j)) (fun j c => x3 (ix3 j c o)) (x4 (ix1 o)) := by
  unfold Gen.out0_5
  rw [View.canon_unit_zero (S := S256x128) zeros2 inb_S256x128_S256x128_0_0]
  rw [View.ld_unit_zero (S := S256x16x64) zeros3 inb_S256x16x64_S256x16x64_0_0_0 x0,
    View.ld_unit_zero (S := S256x16x3) zeros3 inb_S256x16x3_S256x16x3_0_0_0 x1,
    View.ld_unit_zero (S := S256x16x16) zeros3 inb_S256x16x16_S256x16x16_0_0_0 x2,
    View.ld_unit_zero (S := S128) zeros1 inb_S128_S128_0 x4]
  rw [pay1_apply, pay7_apply, pay5_apply, pay3_apply, pay4_apply, pay6_apply, pay8_apply]
  unfold Cert.PConv.kerRow
  refine addPair_congr (addPair_congr (addPair_congr (addPair_congr (addPair_congr (addPair_congr (addPair_congr
    (addPair_congr (addPair_congr (addPair_congr (addPair_congr (addPair_congr (addPair_congr (addPair_congr (addPair_congr
    (addPair_congr (addPair_congr rfl ?_) ?_) ?_) ?_) ?_) ?_) ?_) ?_) ?_) ?_) ?_) ?_) ?_) ?_) ?_) ?_) rfl
  · exact rowTerm_eq x0 x1 x2 x3 0 _ p o
  · exact rowTerm_eq x0 x1 x2 x3 1 _ p o
  · exact rowTerm_eq x0 x1 x2 x3 2 _ p o
  · exact rowTerm_eq x0 x1 x2 x3 3 _ p o
  · exact rowTerm_eq x0 x1 x2 x3 4 _ p o
  · exact rowTerm_eq x0 x1 x2 x3 5 _ p o
  · exact rowTerm_eq x0 x1 x2 x3 6 _ p o
  · exact rowTerm_eq x0 x1 x2 x3 7 _ p o
  · exact rowTerm_eq x0 x1 x2 x3 8 _ p o
  · exact rowTerm_eq x0 x1 x2 x3 9 _ p o
  · exact rowTerm_eq x0 x1 x2 x3 10 _ p o
  · exact rowTerm_eq x0 x1 x2 x3 11 _ p o
  · exact rowTerm_eq x0 x1 x2 x3 12 _ p o
  · exact rowTerm_eq x0 x1 x2 x3 13 _ p o
  · exact rowTerm_eq x0 x1 x2 x3 14 _ p o
  · exact rowTerm_eq x0 x1 x2 x3 15 _ p o

end Cert.KernelIdeal.Pay

end
-- ==== Proof.Blocks.lean ====
/-
  From the grid's blocks to the whole flattened result.  Grid point t works on rows 256·t … 256·t + 255 of the
  flattened arrays (row r = b·65536 + n is point (b, n)); the weights and the bias are whole at every point.  So
  what point t writes back is rows 256·t … of ONE function of the arrays the region finds (`outFlat`), the 512
  blocks tile the [131072, 128] result, and the result array ends holding `outFlat`.
-/
import proofs.«415205_j8967891714686_4_alg».proof.Proof.Gen.KernelIdeal.Frame
import proofs.«415205_j8967891714686_4_alg».proof.Proof.Spec
import proofs.«415205_j8967891714686_4_alg».proof.Proof.Payload
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block index of every window at every grid point: the three row-blocked inputs and the output sit at block
    t of their leading axis, the weights and the bias at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- Window 0's block at point t is rows 256·t … of the flattened gathered features. -/
theorem iblk0_apply (c : Dev nD) (t : Fin cfg0.N) (p : Fin 256) (k : Fin 16) (ch : Fin 64) (r : Fin 131072)
    (hr : r.val = t.val * 256 + p.val) :
    (iblk m c 0 t : Vec Ideal S256x16x64 .f32) (ix3 p k ch) = (V m c main_v7 : S131072x16x64.Idx → EReal) (ix3 r k ch) := by
  obtain ⟨e0, e1, e2, -⟩ := idx_facts t
  unfold iblk
  rw [View.read_apply]
  show V m c main_v7 _ = V m c main_v7 _
  congr 1
  funext a
  apply Fin.ext
  match a with
  | ⟨0, _⟩ => show win0_0.index t (0 : Fin 3) * 256 + 1 * p.val = r.val; rw [e0, hr]; omega
  | ⟨1, _⟩ => show win0_0.index t (1 : Fin 3) * 16 + 1 * k.val = k.val; rw [e1]; omega
  | ⟨2, _⟩ => show win0_0.index t (2 : Fin 3) * 64 + 1 * ch.val = ch.val; rw [e2]; omega

/-- Window 1's block at point t is rows 256·t … of the flattened additional features. -/
theorem iblk1_apply (c : Dev nD) (t : Fin cfg0.N) (p : Fin 256) (k : Fin 16) (ch : Fin 3) (r : Fin 131072)
    (hr : r.val = t.val * 256 + p.val) :
    (iblk m c 1 t : Vec Ideal S256x16x3 .f32) (ix3 p k ch) = (V m c main_v8 : S131072x16x3.Idx → EReal) (ix3 r k ch) := by
  obtain ⟨-, -, -, e0, e1, e2, -⟩ := idx_facts t
  unfold iblk
  rw [View.read_apply]
  show V m c main_v8 _ = V m c main_v8 _
  congr 1
  funext a
  apply Fin.ext
  match a with
  | ⟨0, _⟩ => show win0_1.index t (0 : Fin 3) * 256 + 1 * p.val = r.val; rw [e0, hr]; omega
  | ⟨1, _⟩ => show win0_1.index t (1 : Fin 3) * 16 + 1 * k.val = k.val; rw [e1]; omega
  | ⟨2, _⟩ => show win0_1.index t (2 : Fin 3) * 3 + 1 * ch.val = ch.val; rw [e2]; omega

/-- Window 2's block at point t is rows 256·t … of the flattened weight-net outputs. -/
theorem iblk2_apply (c : Dev nD) (t : Fin cfg0.N) (p : Fin 256) (k : Fin 16) (j : Fin 16) (r : Fin 131072)
    (hr : r.val = t.val * 256 + p.val) :
    (iblk m c 2 t : Vec Ideal S256x16x16 .f32) (ix3 p k j) = (V m c main_v9 : S131072x16x16.Idx → EReal) (ix3 r k j) := by
  obtain ⟨-, -, -, -, -, -, e0, e1, e2, -⟩ := idx_facts t
  unfold iblk
  rw [View.read_apply]
  show V m c main_v9 _ = V m c main_v9 _
  congr 1
  funext a
  apply Fin.ext
  match a with
  | ⟨0, _⟩ => show win0_2.index t (0 : Fin 3) * 256 + 1 * p.val = r.val; rw [e0, hr]; omega
  | ⟨1, _⟩ => show win0_2.index t (1 : Fin 3) * 16 + 1 * k.val = k.val; rw [e1]; omega
  | ⟨2, _⟩ => show win0_2.index t (2 : Fin 3) * 16 + 1 * j.val = j.val; rw [e2]; omega

/-- Window 3's block is the whole re-laid weight array at every point. -/
theorem iblk3_apply (c : Dev nD) (t : Fin cfg0.N) (j : Fin 16) (ch : Fin 67) (o : Fin 128) :
    (iblk m c 3 t : Vec Ideal S16x67x128 .f32) (ix3 j ch o) = (V m c main_v12 : S16x67x128.Idx → EReal) (ix3 j ch o) := by
  obtain ⟨-, -, -, -, -, -, -, -, -, e0, e1, e2, -⟩ := idx_facts t
  unfold iblk
  rw [View.read_apply]
  show V m c main_v12 _ = V m c main_v12 _
  congr 1
  funext a
  apply Fin.ext
  match a with
  | ⟨0, _⟩ => show win0_3.index t (0 : Fin 3) * 16 + 1 * j.val = j.val; rw [e0]; omega
  | ⟨1, _⟩ => show win0_3.index t (1 : Fin 3) * 67 + 1 * ch.val = ch.val; rw [e1]; omega
  | ⟨2, _⟩ => show win0_3.index t (2 : Fin 3) * 128 + 1 * o.val = o.val; rw [e2]; omega

/-- Window 4's block is the whole bias at every point. -/
theorem iblk4_apply (c : Dev nD) (t : Fin cfg0.N) (o : Fin 128) :
    (iblk m c 4 t : Vec Ideal S128 .f32) (ix1 o) = (V m c main_arg5 : S128.Idx → EReal) (ix1 o) := by
  obtain ⟨-, -, -, -, -, -, -, -, -, -, -, -, e0, -⟩ := idx_facts t
  unfold iblk
  rw [View.read_apply]
  show V m c main_arg5 _ = V m c main_arg5 _
  congr 1
  funext a
  apply Fin.ext
  match a with
  | ⟨0, _⟩ => show win0_4.index t (0 : Fin 1) * 128 + 1 * o.val = o.val; rw [e0]; omega

/-- The flattened result, entry (r, o), as one function of the arrays the region finds: the kernel's sum for row r
    and output channel o. -/
def outFlat (c : Dev nD) : S131072x128.Idx → EReal := fun i =>
  Cert.PConv.kerRow
    (Cert.PConv.catRow
      (fun k ch => (V m c main_v7 : S131072x16x64.Idx → EReal) (ix3 (⟨(i 0).val, idx2_lt0 i⟩ : Fin 131072) k ch))
      (fun k ch => (V m c main_v8 : S131072x16x3.Idx → EReal) (ix3 (⟨(i 0).val, idx2_lt0 i⟩ : Fin 131072) k ch)))
    (fun k j => (V m c main_v9 : S131072x16x16.Idx → EReal) (ix3 (⟨(i 0).val, idx2_lt0 i⟩ : Fin 131072) k j))
    (fun j ch => (V m c main_v12 : S16x67x128.Idx → EReal) (ix3 j ch (⟨(i 1).val, idx2_lt1 i⟩ : Fin 128)))
    ((V m c main_arg5 : S128.Idx → EReal) (ix1 (⟨(i 1).val, idx2_lt1 i⟩ : Fin 128)))

/-- A [256, 128] block that agrees entry by entry with rows 256·t … of a [131072, 128] array is that array read
    through point t's output block. -/
theorem cut_eq_read (t : Fin cfg0.N) (B : Vec Ideal S256x128 .f32) (G : S131072x128.Idx → EReal)
    (h : ∀ (p : Fin 256) (o : Fin 128), B (ix2 p o) = G (ix2 (⟨t.val * 256 + p.val, by have := Nat.lt_of_lt_of_eq t.isLt N_0; have := p.isLt; omega⟩ : Fin 131072) o)) :
    (cfg0.win 5).cut (grid0.coords t) B = ((cfg0.win 5).blk t).view.read (Elt Ideal) G := by
  obtain ⟨-, -, -, -, -, -, -, -, -, -, -, -, -, e0, e1⟩ := idx_facts t
  funext y
  rw [View.read_apply]
  obtain ⟨p, o, rfl⟩ : ∃ (p : Fin 256) (o : Fin 128), y = ix2 p o := ⟨y 0, y 1, eq_ix2 y⟩
  show B (ix2 p o) = G _
  rw [h]
  congr 1
  funext a
  apply Fin.ext
  match a with
  | ⟨0, _⟩ => show t.val * 256 + p.val = win0_5.index t (0 : Fin 2) * 256 + 1 * p.val; rw [e0]; omega
  | ⟨1, _⟩ => show o.val = win0_5.index t (1 : Fin 2) * 128 + 1 * o.val; rw [e1]; omega

/-- What point t writes back is rows 256·t … of `outFlat`. -/
theorem flushed_eq (c : Dev nD) (t : Fin cfg0.N) :
    (dats m 0 c).flushed 5 t = ((cfg0.win 5).blk t).view.read (Elt Ideal) (outFlat m c) := by
  show (cfg0.win 5).cut (grid0.coords t) ((dats m 0 c).after 5 t) = _
  rw [after0_5]
  refine cut_eq_read t _ (outFlat m c) fun p o => ?_
  refine (Cert.KernelIdeal.Pay.out0_5_apply (iblk m c 0 t) (iblk m c 1 t) (iblk m c 2 t) (iblk m c 3 t) (iblk m c 4 t) p o).trans ?_
  have hlt : t.val * 256 + p.val < 131072 := by have := Nat.lt_of_lt_of_eq t.isLt N_0; have := p.isLt; omega
  have h0 : (fun (k : Fin 16) (ch : Fin 64) => (iblk m c 0 t : Vec Ideal S256x16x64 .f32) (ix3 p k ch))
      = fun k ch => (V m c main_v7 : S131072x16x64.Idx → EReal) (ix3 (⟨t.val * 256 + p.val, hlt⟩ : Fin 131072) k ch) :=
    funext fun k => funext fun ch => iblk0_apply m c t p k ch _ rfl
  have h1 : (fun (k : Fin 16) (ch : Fin 3) => (iblk m c 1 t : Vec Ideal S256x16x3 .f32) (ix3 p k ch))
      = fun k ch => (V m c main_v8 : S131072x16x3.Idx → EReal) (ix3 (⟨t.val * 256 + p.val, hlt⟩ : Fin 131072) k ch) :=
    funext fun k => funext fun ch => iblk1_apply m c t p k ch _ rfl
  have h2 : (fun (k : Fin 16) (j : Fin 16) => (iblk m c 2 t : Vec Ideal S256x16x16 .f32) (ix3 p k j))
      = fun k j => (V m c main_v9 : S131072x16x16.Idx → EReal) (ix3 (⟨t.val * 256 + p.val, hlt⟩ : Fin 131072) k j) :=
    funext fun k => funext fun j => iblk2_apply m c t p k j _ rfl
  have h3 : (fun (j : Fin 16) (ch : Fin 67) => (iblk m c 3 t : Vec Ideal S16x67x128 .f32) (ix3 j ch o))
      = fun j ch => (V m c main_v12 : S16x67x128.Idx → EReal) (ix3 j ch o) :=
    funext fun j => funext fun ch => iblk3_apply m c t j ch o
  have h4 : (iblk m c 4 t : Vec Ideal S128 .f32) (ix1 o) = (V m c main_arg5 : S128.Idx → EReal) (ix1 o) := iblk4_apply m c t o
  exact congr (congr (congr (congrArg Cert.PConv.kerRow (congr (congrArg Cert.PConv.catRow h0) h1)) h2) h3) h4

/-- Every entry of the flattened result lies in some point's block: row r in block r / 256. -/
theorem cover (i : S131072x128.Idx) : ∃ t : Fin cfg0.N, (cfg0.win 5).flush t = true ∧ i ∈ ((cfg0.win 5).blk t).view.set := by
  have h0 : (i 0).val < 131072 := idx2_lt0 i
  have h1 : (i 1).val < 128 := idx2_lt1 i
  let t : Fin cfg0.N := ⟨(i 0).val / 256, by rw [show cfg0.N = 512 from N_0]; omega⟩
  obtain ⟨-, -, -, -, -, -, -, -, -, -, -, -, -, e0, e1⟩ := idx_facts t
  refine ⟨t, flush0_5 t, ?_⟩
  show i ∈ ((View.whole main_v13).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0]; show (i 0).val / 256 * 256 ≤ (i 0).val ∧ (i 0).val < (i 0).val / 256 * 256 + 256; omega
  | ⟨1, _⟩ =>
    show win0_5.index t (1 : Fin 2) * 128 ≤ (i 1).val ∧ (i 1).val < win0_5.index t (1 : Fin 2) * 128 + 128
    rw [e1]; omega

/-- The flattened result array ends holding `outFlat`. -/
theorem final (c : Dev nD) : (dats m 0 c).arrAt 5 cfg0.N = outFlat m c :=
  (dats m 0 c).arrAt_eq_of_cover 5 (outFlat m c) (fun t _ => flushed_eq m c t) cover

end Cert.KernelIdeal.Blocks

end
-- ==== Proof.KernelValue.lean ====
/-
  The kernel program's result.  After the region @main reshapes the flattened [131072, 128] result to [2, 65536, 128]:
  entry (b, n, o) is entry (b·65536 + n, o) of the flattened one.  Reading the arrays the region found back to
  @main's arguments (the flattened gathered features, additional features and weight-net outputs are reshapes, the
  weights the linear layer's columns re-laid as (j, c) ↦ c·16 + j, the bias itself) gives the result as the
  kernel's sum of the arguments.
-/
import proofs.«415205_j8967891714686_4_alg».proof.Proof.Gen.KernelIdeal.Frame
import proofs.«415205_j8967891714686_4_alg».proof.Proof.Spec
import proofs.«415205_j8967891714686_4_alg».proof.Proof.HostPre
import proofs.«415205_j8967891714686_4_alg».proof.Proof.Blocks
import Idealize.ShloMosaic.Lib.ValueIdx
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Blocks Cert.KernelIdeal.HostPre

variable (m : (ℓ : Loc nD τ sig) → Buf (Elt Ideal) ℓ) (ρ : Dev nD → PrngReg)

/-- The reshape after the region, applied to what the region leaves in the flattened result. -/
theorem tail (c : Dev nD) :
    Pipeline.afterTail₀ cfgs (dats m) 0 (V0 m) [hostOps1] c main_v14
      = shapeCast S2x65536x128 (outFlat m c) shapeCasts_S131072x128_S2x65536x128 := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.tc.devRef main_v13)
      = outFlat m c := (Pipeline.withArrays_arr spec0 launch0.win.arr_inj c _ _ 5).trans (final m c)
  rw [e]
  rfl

/-- The kernel program's result at (b, n, o): the kernel's sum of @main's arguments. -/
def result (c : Dev nD) : S2x65536x128.Idx → EReal := fun i =>
  Cert.PConv.kerRow
    (Cert.PConv.catRow
      (fun k ch => gathered (m ((c : Thread nD τ).loc main_arg0)) (m ((c : Thread nD τ).loc main_arg1))
        (ix4 (⟨(i 0).val, (i 0).isLt⟩ : Fin 2) (⟨(i 1).val, (i 1).isLt⟩ : Fin 65536) k ch))
      (fun k ch => (m ((c : Thread nD τ).loc main_arg3) : S2x65536x16x3.Idx → EReal)
        (ix4 (⟨(i 0).val, (i 0).isLt⟩ : Fin 2) (⟨(i 1).val, (i 1).isLt⟩ : Fin 65536) k ch)))
    (fun k j => (m ((c : Thread nD τ).loc main_arg2) : S2x65536x16x16.Idx → EReal)
      (ix4 (⟨(i 0).val, (i 0).isLt⟩ : Fin 2) (⟨(i 1).val, (i 1).isLt⟩ : Fin 65536) k j))
    (fun j ch => (m ((c : Thread nD τ).loc main_arg4) : S128x1072.Idx → EReal)
      (ix2 (⟨(i 2).val, (i 2).isLt⟩ : Fin 128) (⟨ch.val * 16 + j.val, by have := ch.isLt; have := j.isLt; omega⟩ : Fin 1072)))
    ((m ((c : Thread nD τ).loc main_arg5) : S128.Idx → EReal) (ix1 (⟨(i 2).val, (i 2).isLt⟩ : Fin 128)))

/-- The reshaped flattened result is `result`. -/
theorem tail_eq (c : Dev nD) :
    shapeCast S2x65536x128 (outFlat m c) shapeCasts_S131072x128_S2x65536x128 = result m c := by
  funext i
  obtain ⟨b, n, o, rfl⟩ : ∃ (b : Fin 2) (n : Fin 65536) (o : Fin 128), i = ix3 b n o := ⟨i 0, i 1, i 2, eq_ix3 i⟩
  have hb := b.isLt; have hn := n.isLt; have ho := o.isLt
  refine (shapeCast_apply (outFlat m c) shapeCasts_S131072x128_S2x65536x128 (ix3 b n o)
    (ix2 (⟨b.val * 65536 + n.val, by omega⟩ : Fin 131072) o)
    (by rw [Shape.rowMajor_val_two, Shape.rowMajor_val_three]; show (b.val * 65536 + n.val) * 128 + o.val = (b.val * 65536 + n.val) * 128 + o.val; rfl)).trans ?_
  have h7 : (fun (k : Fin 16) (ch : Fin 64) => (V m c main_v7 : S131072x16x64.Idx → EReal) (ix3 (⟨b.val * 65536 + n.val, by omega⟩ : Fin 131072) k ch))
      = fun k ch => gathered (m ((c : Thread nD τ).loc main_arg0)) (m ((c : Thread nD τ).loc main_arg1)) (ix4 b n k ch) :=
    funext fun k => funext fun ch => V_main_v7_apply m c b n k ch
  have h8 : (fun (k : Fin 16) (ch : Fin 3) => (V m c main_v8 : S131072x16x3.Idx → EReal) (ix3 (⟨b.val * 65536 + n.val, by omega⟩ : Fin 131072) k ch))
      = fun k ch => (m ((c : Thread nD τ).loc main_arg3) : S2x65536x16x3.Idx → EReal) (ix4 b n k ch) :=
    funext fun k => funext fun ch => V_main_v8_apply m c b n k ch
  have h9 : (fun (k : Fin 16) (j : Fin 16) => (V m c main_v9 : S131072x16x16.Idx → EReal) (ix3 (⟨b.val * 65536 + n.val, by omega⟩ : Fin 131072) k j))
      = fun k j => (m ((c : Thread nD τ).loc main_arg2) : S2x65536x16x16.Idx → EReal) (ix4 b n k j) :=
    funext fun k => funext fun j => V_main_v9_apply m c b n k j
  have h12 : (fun (j : Fin 16) (ch : Fin 67) => (V m c main_v12 : S16x67x128.Idx → EReal) (ix3 j ch o))
      = fun j ch => (m ((c : Thread nD τ).loc main_arg4) : S128x1072.Idx → EReal)
          (ix2 o (⟨ch.val * 16 + j.val, by have := ch.isLt; have := j.isLt; omega⟩ : Fin 1072)) :=
    funext fun j => funext fun ch => V_main_v12_apply m c j ch o
  have h5 : (V m c main_arg5 : S128.Idx → EReal) (ix1 o) = (m ((c : Thread nD τ).loc main_arg5) : S128.Idx → EReal) (ix1 o) :=
    congrFun (V_main_arg5 m c) (ix1 o)
  exact congr (congr (congr (congrArg Cert.PConv.kerRow (congr (congrArg Cert.PConv.catRow h7) h8)) h9) h12) h5

/-- The kernel program runs, ends with its result array at `result` and leaves its arguments as they were. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v14 (Pipeline.mem_restRefs_of main_v14 (by decide) (by decide))).trans (tail m c)).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c)))⟩)
    (run_main m ρ)

end Cert.KernelIdeal.KValue

end
-- ==== Proof.lean ====
/-
  A point-convolution layer: for every point (b, n) the features of its 16 neighbours (64 gathered channels and 3
  additional ones) are contracted over the neighbours with the 16 weight-net channels, and the resulting 67 × 16
  values go through a linear layer with 1072 columns and a bias.

  The reference forms the 1072 values pconv (c·16 + j) = Σ_k feat k c · wn k j of a point and sums pconv q · W (o, q)
  over all columns q at once.  The kernel works on 512 blocks of 256 flattened points; for each weight-net channel j it
  sums (Σ_k wn k j · feat k c) · W (o, c·16 + j) over the 67 feature channels c and adds the sixteen partial sums one
  after the other; its weights are the linear layer's columns re-laid beforehand by the permutation
  (j, c) ↦ c·16 + j.  On the extended reals the two are the same finite sum: the products commute and the sum is
  re-indexed by q ↔ (c, j) (Proof/Spec.lean); no distributivity is involved, so the finiteness of the inputs is
  not used.

  Proof/Payload.lean reads the kernel body's stored block at an entry, Proof/HostPre.lean the arrays the region finds
  as functions of the arguments, Proof/Blocks.lean goes from the grid's blocks to the flattened result,
  Proof/KernelValue.lean through the final reshape to the kernel program's run, Proof/RefValue.lean reads the
  reference's result at an entry.  The gathered neighbour features are the same term of the arguments in both
  programs and are never opened.
-/
import proofs.«415205_j8967891714686_4_alg».proof.Defs
import proofs.«415205_j8967891714686_4_alg».proof.Proof.Gen.Kernel
import proofs.«415205_j8967891714686_4_alg».proof.Proof.Gen.Kernel.Skeleton
import proofs.«415205_j8967891714686_4_alg».proof.Proof.Gen.Kernel.Launch
import proofs.«415205_j8967891714686_4_alg».proof.Proof.Gen.Kernel.Points
import proofs.«415205_j8967891714686_4_alg».proof.Proof.Gen.Kernel.Frame
import proofs.«415205_j8967891714686_4_alg».proof.Proof.Gen.KernelIdeal
import proofs.«415205_j8967891714686_4_alg».proof.Proof.Gen.KernelIdeal.Skeleton
import proofs.«415205_j8967891714686_4_alg».proof.Proof.Gen.KernelIdeal.Launch
import proofs.«415205_j8967891714686_4_alg».proof.Proof.Gen.KernelIdeal.Points
import proofs.«415205_j8967891714686_4_alg».proof.Proof.Gen.KernelIdeal.Frame
import proofs.«415205_j8967891714686_4_alg».proof.Proof.Gen.ReferenceIdeal
import proofs.«415205_j8967891714686_4_alg».proof.Proof.Gen.ReferenceIdeal.Run
import proofs.«415205_j8967891714686_4_alg».proof.Proof.Gen.ReferenceIdeal.Read
import proofs.«415205_j8967891714686_4_alg».proof.Proof.Gen.Pre_finite_inputs
import proofs.«415205_j8967891714686_4_alg».proof.Proof.Spec
import proofs.«415205_j8967891714686_4_alg».proof.Proof.RefValue
import proofs.«415205_j8967891714686_4_alg».proof.Proof.KernelValue
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The gathered neighbour features are one term of the two index arguments in both programs. -/
theorem gathered_eq (x0 : (⟨Cert.KernelIdeal.S2x65536x64, .f32⟩ : BufTy).Contents (Elt Ideal))
    (x1 : (⟨Cert.KernelIdeal.S2x65536x16, .i32⟩ : BufTy).Contents (Elt Ideal)) :
    Cert.KernelIdeal.HostPre.gathered x0 x1 = Cert.ReferenceIdeal.Read.val_main_v6 (F := Ideal) x0 x1 := by
  have hd : (Cert.KernelIdeal.gather_S2x65536x64_S2x65536x16x1_S2x65536x16x64_3_1_0_0_1_3_1164 : GatherDims _ _ _)
      = Cert.ReferenceIdeal.gather_S2x65536x64_S2x65536x16x1_S2x65536x16x64_3_1_0_0_1_3_1164 := rfl
  have hi : (broadcastInDim Cert.KernelIdeal.S2x65536x16x1 ![0, 1, 2] Cert.KernelIdeal.Gen.bcast_S2x65536x16_S2x65536x16x1_0_1_2
      (select (cmpi .slt x1 (broadcastInDim Cert.KernelIdeal.S2x65536x16 ![] Cert.KernelIdeal.Gen.bcast_S_S2x65536x16 (constantI Cert.KernelIdeal.S_ 32 0#32)))
        (addi x1 (broadcastInDim Cert.KernelIdeal.S2x65536x16 ![] Cert.KernelIdeal.Gen.bcast_S_S2x65536x16 (constantI Cert.KernelIdeal.S_ 32 65536#32))) x1))
      = Cert.ReferenceIdeal.Read.val_main_v5 (F := Ideal) x1 := rfl
  unfold Cert.KernelIdeal.HostPre.gathered Cert.ReferenceIdeal.Read.val_main_v6
  rw [hi, hd]

/-- One entry: the kernel's sum and the reference's sum of the same arguments agree. -/
theorem row_eq (x0 : (⟨Cert.KernelIdeal.S2x65536x64, .f32⟩ : BufTy).Contents (Elt Ideal)) (x1 : (⟨Cert.KernelIdeal.S2x65536x16, .i32⟩ : BufTy).Contents (Elt Ideal))
    (x2 : (⟨Cert.KernelIdeal.S2x65536x16x16, .f32⟩ : BufTy).Contents (Elt Ideal)) (x3 : (⟨Cert.KernelIdeal.S2x65536x16x3, .f32⟩ : BufTy).Contents (Elt Ideal))
    (x4 : (⟨Cert.KernelIdeal.S128x1072, .f32⟩ : BufTy).Contents (Elt Ideal)) (x5 : (⟨Cert.KernelIdeal.S128, .f32⟩ : BufTy).Contents (Elt Ideal))
    (b : Fin 2) (n : Fin 65536) (o : Fin 128) :
    Cert.PConv.kerRow
      (Cert.PConv.catRow (fun k ch => Cert.KernelIdeal.HostPre.gathered x0 x1 (ix4 b n k ch)) (fun k ch => x3 (ix4 b n k ch)))
      (fun k j => x2 (ix4 b n k j))
      (fun j ch => x4 (ix2 o (⟨ch.val * 16 + j.val, by have := ch.isLt; have := j.isLt; omega⟩ : Fin 1072)))
      (x5 (ix1 o))
    = Cert.ReferenceIdeal.Read.val_main_v13 (F := Ideal) x0 x1 x2 x3 x4 x5 (ix3 b n o) := by
  rw [Cert.ReferenceIdeal.RefValue.ref_apply, gathered_eq]
  exact Cert.PConv.kerRow_eq_refRow _ _ _ (fun q => x4 (ix2 o q)) _ (fun j ch => rfl)

/-- The kernel program's result is the reference's, as functions of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.KValue.result m c
      = Cert.ReferenceIdeal.Read.val_main_v13 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext i
  obtain ⟨b, n, o, rfl⟩ : ∃ (b : Fin 2) (n : Fin 65536) (o : Fin 128), i = ix3 b n o := ⟨i 0, i 1, i 2, eq_ix3 i⟩
  exact row_eq _ _ _ _ _ _ b n o

theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2.1, (hagree c).2.2.2.2.2]
  exact (result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
